-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x1376 : Shape := ⟨2, ![4096, 1376]⟩
abbrev S32x1376 : Shape := ⟨2, ![32, 1376]⟩
abbrev S32x11008 : Shape := ⟨2, ![32, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S2x2048x4096 .f32) (main_arg1 : IVec S4096x1376 32) (main_arg2 : IVec S32x1376 32) (main_arg3 : FVec F S32x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S2x2048x4096 : Shape := ⟨3, ![2, 2048, 4096]⟩
abbrev S4096x1376 : Shape := ⟨2, ![4096, 1376]⟩
abbrev S32x1376 : Shape := ⟨2, ![32, 1376]⟩
abbrev S32x11008 : Shape := ⟨2, ![32, 11008]⟩
abbrev S_ : Shape := ⟨0, ![]⟩
abbrev S4096x1408 : Shape := ⟨2, ![4096, 1408]⟩
abbrev S32x1408 : Shape := ⟨2, ![32, 1408]⟩
abbrev S32x11264 : Shape := ⟨2, ![32, 11264]⟩
abbrev S4096x4096 : Shape := ⟨2, ![4096, 4096]⟩
abbrev S4096x11264 : Shape := ⟨2, ![4096, 11264]⟩
abbrev S2048x1024 : Shape := ⟨2, ![2048, 1024]⟩
abbrev S1024x128 : Shape := ⟨2, ![1024, 128]⟩
abbrev S8x128 : Shape := ⟨2, ![8, 128]⟩
abbrev S8x1024 : Shape := ⟨2, ![8, 1024]⟩
abbrev S1024x1024 : Shape := ⟨2, ![1024, 1024]⟩
abbrev S1x1x8 : Shape := ⟨3, ![1, 1, 8]⟩
abbrev S128x128 : Shape := ⟨2, ![128, 128]⟩
abbrev S128x128x1 : Shape := ⟨3, ![128, 128, 1]⟩
abbrev S128x128x8 : Shape := ⟨3, ![128, 128, 8]⟩
abbrev S128x1024 : Shape := ⟨2, ![128, 1024]⟩
abbrev S1x128 : Shape := ⟨2, ![1, 128]⟩
abbrev S128 : Shape := ⟨1, ![128]⟩
abbrev S1x128x1 : Shape := ⟨3, ![1, 128, 1]⟩
abbrev S1x128x8 : Shape := ⟨3, ![1, 128, 8]⟩
abbrev S1x1024 : Shape := ⟨2, ![1, 1024]⟩
abbrev S1024 : Shape := ⟨1, ![1024]⟩
abbrev S4096x11008 : Shape := ⟨2, ![4096, 11008]⟩
abbrev S2x2048x11008 : Shape := ⟨3, ![2, 2048, 11008]⟩

abbrev nBuf : Space → Nat
  | .hbm => 18
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S_, .i32⟩
  | .hbm, ⟨5, _⟩ => ⟨S_, .i32⟩
  | .hbm, ⟨6, _⟩ => ⟨S4096x1408, .i32⟩
  | .hbm, ⟨7, _⟩ => ⟨S_, .i32⟩
  | .hbm, ⟨8, _⟩ => ⟨S_, .i32⟩
  | .hbm, ⟨9, _⟩ => ⟨S32x1408, .i32⟩
  | .hbm, ⟨10, _⟩ => ⟨S_, .i32⟩
  | .hbm, ⟨11, _⟩ => ⟨S_, .f32⟩
  | .hbm, ⟨12, _⟩ => ⟨S32x11264, .f32⟩
  | .hbm, ⟨13, _⟩ => ⟨S4096x4096, .f32⟩
  | .hbm, ⟨14, _⟩ => ⟨S4096x4096, .bf16⟩
  | .hbm, ⟨15, _⟩ => ⟨S4096x11264, .f32⟩
  | .hbm, ⟨16, _⟩ => ⟨S4096x11008, .f32⟩
  | .hbm, ⟨17, _⟩ => ⟨S2x2048x11008, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .i32⟩
  | .local _ .vmem, ⟨3, _⟩ => ⟨S1024x128, .i32⟩
  | .local _ .vmem, ⟨4, _⟩ => ⟨S8x128, .i32⟩
  | .local _ .vmem, ⟨5, _⟩ => ⟨S8x128, .i32⟩
  | .local _ .vmem, ⟨6, _⟩ => ⟨S8x1024, .f32⟩
  | .local _ .vmem, ⟨7, _⟩ => ⟨S8x1024, .f32⟩
  | .local _ .vmem, ⟨8, _⟩ => ⟨S2048x1024, .f32⟩
  | .local _ .vmem, ⟨9, _⟩ => ⟨S2048x1024, .f32⟩
  | .local _ .vmem, ⟨10, _⟩ => ⟨S1024x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 11, 4], ![false, false, false]⟩

@[reducible] def k0_t1_loop : Scf.Loop 32 :=
  let c0_i32_1 : BitVec 32 := 0#32
  let c8_i32 : BitVec 32 := 8#32
  let v6 : BitVec 32 := Scalar.addi c0_i32_1 c8_i32
  let c1_i32 : BitVec 32 := 1#32
  ⟨c0_i32_1, v6, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v15 : BitVec 32 := Scalar.muli arg9 c128_i32
  v15
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v15 : BitVec 32 := Scalar.muli arg9 c128_i32
  let v16 : BitVec 32 := v15
  let v17 : Index := Scalar.indexCast v16
  let c0_10 : Index := 0#32
  ![v17.toNat, 0]
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v28 : Index := Scalar.indexCast arg9
  let c0_11 : Index := 0#32
  ![v28.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v39 : Index := Scalar.indexCast arg9
  let c0_13 : Index := 0#32
  ![v39.toNat, 0]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v15 : BitVec 32 := Scalar.muli arg9 c128_i32
  let v16 : BitVec 32 := v15
  let v48 : Index := Scalar.indexCast v16
  let c0_14 : Index := 0#32
  ![v48.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S4096x1376_S4096x1408_000_0320 : S4096x1376.Pads (![0, 0] : Fin 2 → Nat) ![0, 32] ![0, 0] S4096x1408
  h_S_ : 0 < S_.numel
  pads_S32x1376_S32x1408_000_0320 : S32x1376.Pads (![0, 0] : Fin 2 → Nat) ![0, 32] ![0, 0] S32x1408
  pads_S32x11008_S32x11264_000_02560 : S32x11008.Pads (![0, 0] : Fin 2 → Nat) ![0, 256] ![0, 0] S32x11264
  shapeCasts_S2x2048x4096_S4096x4096 : S2x2048x4096.ShapeCasts S4096x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  iota_S1x1x8_d2_w32 : S1x1x8.Iotas .tc 32 [2]
  h_S128x128 : 0 < S128x128.numel
  shapeCasts_S128x128_S128x128 : S128x128.ShapeCasts S128x128
  shapeCasts_S128x128_S128x128x1 : S128x128.ShapeCasts S128x128x1
  broadcasts_S128x128x1_S128x128x8 : S128x128x1.Broadcasts S128x128x8
  broadcasts_S1x1x8_S128x128x8 : S1x1x8.Broadcasts S128x128x8
  shapeCasts_S128x128x8_S128x1024 : S128x128x8.ShapeCasts S128x1024
  h_S1x128 : 0 < S1x128.numel
  shapeCasts_S1x128_S128 : S1x128.ShapeCasts S128
  shapeCasts_S128_S1x128x1 : S128.ShapeCasts S1x128x1
  broadcasts_S1x128x1_S1x128x8 : S1x128x1.Broadcasts S1x128x8
  broadcasts_S1x1x8_S1x128x8 : S1x1x8.Broadcasts S1x128x8
  shapeCasts_S1x128x8_S1x1024 : S1x128x8.ShapeCasts S1x1024
  h_S1x1024 : 0 < S1x1024.numel
  shapeCasts_S1x1024_S1024 : S1x1024.ShapeCasts S1024
  shapeCasts_S1024_S1x1024 : S1024.ShapeCasts S1x1024
  broadcasts_S1x1024_S128x1024 : S1x1024.Broadcasts S128x1024
  h_S128x1024 : 0 < S128x1024.numel
  shapeCasts_S128x1024_S128x1024 : S128x1024.ShapeCasts S128x1024
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  slices_S4096x11264_S4096x11008_0_0 : S4096x11264.Slices ![0, 0] S4096x11008
  shapeCasts_S4096x11008_S2x2048x11008 : S4096x11008.ShapeCasts S2x2048x11008
  dot_S2048x1024_S1024x1024_S2048x1024_1_0_0_1_n_n_wf : DotDims.WF S2048x1024 S1024x1024 S2048x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S1024x128.size a
  k0_off2_inb : ∀ k0_t1 : Fin k0_t1_loop.trips, ∀ a, (k0_off2 k0_t1) a + S1x128.size a ≤ S8x128.size a
  k0_off3_inb : ∀ k0_t1 : Fin k0_t1_loop.trips, ∀ a, (k0_off3 k0_t1) a + S1x1024.size a ≤ S8x1024.size a
  k0_off4_inb : ∀ k0_t1 : Fin k0_t1_loop.trips, ∀ a, (k0_off4 k0_t1) a + S128x1024.size a ≤ S1024x1024.size a
  k0_off4_packedbf16 : ∀ k0_t1 : Fin k0_t1_loop.trips, (Rect.unit (s := S1024x1024) (k0_off4 k0_t1) S128x1024.size (k0_off4_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x1408.size a
  hwx0_1 : ∀ i : grid0.Coords, EltTy.bits .i32 = 32 ∨ (Rect.block (s := S4096x1408) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x1408.size a
  hwx0_2 : ∀ i : grid0.Coords, EltTy.bits .i32 = 32 ∨ (Rect.block (s := S32x1408) S8x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x11264.size a
  hwx0_3 : ∀ i : grid0.Coords, EltTy.bits .f32 = 32 ∨ (Rect.block (s := S32x11264) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x11264.size a
  hwx0_4 : ∀ i : grid0.Coords, EltTy.bits .f32 = 32 ∨ (Rect.block (s := S4096x11264) S2048x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v4) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096x1376 : Shape := ⟨2, ![4096, 1376]⟩
abbrev S32x1376 : Shape := ⟨2, ![32, 1376]⟩
abbrev S32x11008 : Shape := ⟨2, ![32, 11008]⟩
abbrev S8 : Shape := ⟨1, ![8]⟩
abbrev S_ : Shape := ⟨0, ![]⟩
abbrev S1x1x8 : Shape := ⟨3, ![1, 1, 8]⟩
abbrev S4096x1376x1 : Shape := ⟨3, ![4096, 1376, 1]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S2x2048x11008 : Shape := ⟨3, ![2, 2048, 11008]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1x1x8, .i32⟩
  | .hbm, ⟨9, _⟩ => ⟨S4096x1376x1, .i32⟩
  | .hbm, ⟨10, _⟩ => ⟨S4096x1376x8, .i32⟩
  | .hbm, ⟨11, _⟩ => ⟨S4096x1376x8, .i32⟩
  | .hbm, ⟨12, _⟩ => ⟨S4096x1376x8, .i32⟩
  | .hbm, ⟨13, _⟩ => ⟨S_, .i32⟩
  | .hbm, ⟨14, _⟩ => ⟨S4096x1376x8, .i32⟩
  | .hbm, ⟨15, _⟩ => ⟨S4096x1376x8, .i32⟩
  | .hbm, ⟨16, _⟩ => ⟨S4096x11008, .i32⟩
  | .hbm, ⟨17, _⟩ => ⟨S4096x11008, .f32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S1x1x8, .i32⟩
  | .hbm, ⟨23, _⟩ => ⟨S32x1376x1, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S32x128x11008, .f32⟩
  | .hbm, ⟨33, _⟩ => ⟨S4096x11008, .f32⟩
  | .hbm, ⟨34, _⟩ => ⟨S32x128x11008, .f32⟩
  | .hbm, ⟨35, _⟩ => ⟨S4096x11008, .f32⟩
  | .hbm, ⟨36, _⟩ => ⟨S4096x11008, .f32⟩
  | .hbm, ⟨37, _⟩ => ⟨S4096x11008, .f32⟩
  | .hbm, ⟨38, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x1x8_2 : S8.BroadcastsInDim S1x1x8 (![2] : Fin 1 → Fin S1x1x8.rank)
  bcast_S4096x1376_S4096x1376x1_0_1 : S4096x1376.BroadcastsInDim S4096x1376x1 (![0, 1] : Fin 2 → Fin S4096x1376x1.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  dot_S2x2048x4096_S4096x11008_S2x2048x11008_2_0_01_1_n_n_wf : DotDims.WF S2x2048x4096 S4096x11008 S2x2048x11008 [2] [0] [0, 1] [1] [] []

variable [Facts₀]

def dot_S2x2048x4096_S4096x11008_S2x2048x11008_2_0_01_1_n_n : DotDims S2x2048x4096 S4096x11008 S2x2048x11008 where
  lhsContracting := [2]
  rhsContracting := [0]
  lhsNonContracting := [0, 1]
  rhsNonContracting := [1]
  lhsBatch := []
  rhsBatch := []
  wf := dot_S2x2048x4096_S4096x11008_S2x2048x11008_2_0_01_1_n_n_wf

class Facts : Prop extends Facts₀ where

variable [Facts]
-- ==== Proof.KernelTrip.lean ====
/-
  The counted loop of the kernel body, read as values. Trip `k` (of eight) loads rows `128k … 128k+127` of the packed
  weight slab, row `k` of the zero-point slab and row `k` of the scale slab, and stores their dequantized product into
  rows `128k … 128k+127` of the 1024×1024 scratch tile. So the trips' stores are eight disjoint row bands that tile the
  scratch: after the loop every element of the scratch was written, by exactly the trip `r / 128` that owns its row `r`,
  and what a whole-tile load reads back does not depend on what the scratch held before.
-/
import proofs.«416305_j86071144611917_3_alg».proof.Proof.Gen.Kernel.Loops
import Idealize.ShloMosaic.Lib.Pipeline.Value
import Idealize.ShloMosaic.Lib.Pipeline.FrameBody
import Idealize.ShloMosaic.Lib.ValueIdx

set_option maxRecDepth 16384

noncomputable section

namespace Cert.Kernel.Trip

open Cert.Kernel Cert.Kernel.Gen Idealize.ShloMosaic Idealize.ShloMosaic.TcCoe Idealize.ShloMosaic.ValueIdx Idealize.SL.Sem

variable {F : FTy → Type} [FloatOps F]

/-- The loop runs eight trips. -/
theorem trips_eq : k0_t1_loop.trips = 8 := by decide +kernel

variable (𝒱 : Variants) (c : Dev nD) (bd : Option 𝒱.V) (i : grid0.Coords) (arg3 : Memref sig .tc .vmem S2048x1024 .bf16) (harg3 : arg3.IsWhole) (arg4 : Memref sig .tc .vmem S1024x128 .i32) (harg4 : arg4.IsWhole) (arg5 : Memref sig .tc .vmem S8x128 .i32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S1024x1024 .bf16) (harg8 : arg8.IsWhole)
  (X4 : BufTy.Contents (Elt F) arg4.view.ty) (X5 : BufTy.Contents (Elt F) arg5.view.ty) (X6 : BufTy.Contents (Elt F) arg6.view.ty)

/-- What trip `k` stores: the dequantized 128-row band of the slabs it loads. -/
def band (k : Fin k0_t1_loop.trips) : Vec F S128x1024 .bf16 :=
  k0_pay2 (View.readAt (Elt F) arg4.view (Rect.unit (s := S1024x128) (k0_off1 k) S128x128.size (k0_off1_inb k)).toLoadRect X4)
    (View.readAt (Elt F) arg5.view (Rect.unit (s := S8x128) (k0_off2 k) S1x128.size (k0_off2_inb k)).toLoadRect X5)
    (View.readAt (Elt F) arg6.view (Rect.unit (s := S8x1024) (k0_off3 k) S1x1024.size (k0_off3_inb k)).toLoadRect X6)

/-- Trip `k`'s store: the band, through the rectangle of rows `128k … 128k+127`. -/
def piece (k : Fin k0_t1_loop.trips) : View.Piece (Elt F) S1024x1024 .bf16 :=
  ⟨Rect.unit (s := S1024x1024) (k0_off4 k) S128x1024.size (k0_off4_inb k), band arg4 arg5 arg6 X4 X5 X6 k⟩

/-- One trip leaves exactly its one store. -/
theorem tripL_eq (k : Fin k0_t1_loop.trips) :
    tripL_k0_t1 (F := F) 𝒱 c bd i arg3 harg3 arg4 harg4 arg5 harg5 arg6 harg6 arg7 harg7 arg8 harg8 X4 X5 X6 k = [piece arg4 arg5 arg6 X4 X5 X6 k] := by
  unfold tripL_k0_t1 trip_k0_t1
  rfl

/-- The stores of the trips before `n` include trip `k`'s, for every `k < n`. -/
theorem piece_mem_pb : ∀ (n : ℕ) (hn : n ≤ k0_t1_loop.trips) (k : Fin k0_t1_loop.trips), k.val < n →
    piece arg4 arg5 arg6 X4 X5 X6 k ∈ pb_k0_t1 (F := F) 𝒱 c bd i arg3 harg3 arg4 harg4 arg5 harg5 arg6 harg6 arg7 harg7 arg8 harg8 X4 X5 X6 n
  | 0, _, k, hk => absurd hk (Nat.not_lt_zero _)
  | n + 1, hn, k, hk => by
    have e := pb_k0_t1_succ (F := F) 𝒱 c bd i arg3 harg3 arg4 harg4 arg5 harg5 arg6 harg6 arg7 harg7 arg8 harg8 X4 X5 X6 ⟨n, hn⟩
    rw [tripL_eq] at e
    rw [show n + 1 = (⟨n, hn⟩ : Fin k0_t1_loop.trips).val + 1 from rfl, e]
    by_cases h : k.val = n
    · obtain rfl : k = ⟨n, hn⟩ := Fin.ext h
      exact List.mem_cons_self
    · exact List.mem_cons_of_mem _ (piece_mem_pb n (Nat.le_of_succ_le hn) k (by omega))

/-- And nothing else: every store of the trips before `n` is some trip's. -/
theorem eq_piece_of_mem_pb : ∀ (n : ℕ) (hn : n ≤ k0_t1_loop.trips) (p : View.Piece (Elt F) S1024x1024 .bf16),
    p ∈ pb_k0_t1 (F := F) 𝒱 c bd i arg3 harg3 arg4 harg4 arg5 harg5 arg6 harg6 arg7 harg7 arg8 harg8 X4 X5 X6 n → ∃ k : Fin k0_t1_loop.trips, p = piece arg4 arg5 arg6 X4 X5 X6 k
  | 0, _, p, hp => by rw [pb_k0_t1.eq_1] at hp; exact absurd hp List.not_mem_nil
  | n + 1, hn, p, hp => by
    have e := pb_k0_t1_succ (F := F) 𝒱 c bd i arg3 harg3 arg4 harg4 arg5 harg5 arg6 harg6 arg7 harg7 arg8 harg8 X4 X5 X6 ⟨n, hn⟩
    rw [tripL_eq] at e
    rw [show n + 1 = (⟨n, hn⟩ : Fin k0_t1_loop.trips).val + 1 from rfl, e] at hp
    rcases List.mem_cons.mp hp with rfl | hp'
    · exact ⟨⟨n, hn⟩, rfl⟩
    · exact eq_piece_of_mem_pb n (Nat.le_of_succ_le hn) p hp'

/-- The trip that owns row `r` of the scratch: `r / 128`. -/
def owner (y : S1024x1024.Idx) : Fin k0_t1_loop.trips := ⟨(y 0).val / 128, by
  rw [trips_eq]; have h : (y 0).val < 1024 := (y 0).isLt; omega⟩

/-- An element of the scratch lies in the band of the trip that owns its row. -/
theorem mem_owner (y : S1024x1024.Idx) : y ∈ (piece arg4 arg5 arg6 X4 X5 X6 (owner y)).1.set := by
  show y ∈ (Rect.unit (s := S1024x1024) (k0_off4 (owner y)) S128x1024.size (k0_off4_inb (owner y))).set
  rw [Rect.mem_set_unit, k0_off4_eq]
  have h0 : (y 0).val < 1024 := (y 0).isLt
  have h1 : (y 1).val < 1024 := (y 1).isLt
  intro a
  match a with
  | ⟨0, _⟩ => show 128 * ((y 0).val / 128) ≤ (y 0).val ∧ (y 0).val < 128 * ((y 0).val / 128) + 128; omega
  | ⟨1, _⟩ => show 0 ≤ (y 1).val ∧ (y 1).val < 0 + 1024; omega

/-- THE COVER: after all the trips every element of the scratch has been stored. -/
theorem pb_cover (y : S1024x1024.Idx) :
    ∃ p ∈ pb_k0_t1 (F := F) 𝒱 c bd i arg3 harg3 arg4 harg4 arg5 harg5 arg6 harg6 arg7 harg7 arg8 harg8 X4 X5 X6 k0_t1_loop.trips, y ∈ p.1.set :=
  ⟨_, piece_mem_pb 𝒱 c bd i arg3 harg3 arg4 harg4 arg5 harg5 arg6 harg6 arg7 harg7 arg8 harg8 X4 X5 X6 _ (Nat.le_refl _) (owner y) (owner y).isLt, mem_owner arg4 arg5 arg6 X4 X5 X6 y⟩

/-- The scratch tile as ONE function of the three slabs: row `r` reads row `r % 128` of the band of trip `r / 128`. -/
def tile (y : S1024x1024.Idx) : Elt F .bf16 :=
  band arg4 arg5 arg6 X4 X5 X6 (owner y) (ix2 (⟨(y 0).val % 128, Nat.mod_lt _ (by decide)⟩ : Fin 128) (y 1))

/-- Every store of the loop is the tile's restriction to its rectangle. -/
theorem piece_eq_tile (k : Fin k0_t1_loop.trips) (x : (piece arg4 arg5 arg6 X4 X5 X6 k).1.shape.Idx) :
    (piece arg4 arg5 arg6 X4 X5 X6 k).2 x = tile arg4 arg5 arg6 X4 X5 X6 ((piece arg4 arg5 arg6 X4 X5 X6 k).1.emb x) := by
  have hk : k.val < 8 := lt_of_lt_of_eq k.isLt trips_eq
  have hx0 : (x 0).val < 128 := (x 0).isLt
  have e0 : (((piece arg4 arg5 arg6 X4 X5 X6 k).1.emb x) 0).val = 128 * k.val + (x 0).val := by
    show (Rect.unit (s := S1024x1024) (k0_off4 k) S128x1024.size (k0_off4_inb k)).off 0
      + (Rect.unit (s := S1024x1024) (k0_off4 k) S128x1024.size (k0_off4_inb k)).stride 0 * (x 0).val = _
    show (k0_off4 k) 0 + 1 * (x 0).val = _
    rw [k0_off4_eq]; show 128 * k.val + 1 * (x 0).val = _; omega
  have e1 : (((piece arg4 arg5 arg6 X4 X5 X6 k).1.emb x) 1).val = (x 1).val := by
    show (k0_off4 k) 1 + 1 * (x 1).val = _
    rw [k0_off4_eq]; show 0 + 1 * (x 1).val = _; omega
  have eo : owner ((piece arg4 arg5 arg6 X4 X5 X6 k).1.emb x) = k := Fin.ext (by
    show (((piece arg4 arg5 arg6 X4 X5 X6 k).1.emb x) 0).val / 128 = k.val
    rw [e0]; omega)
  unfold tile
  rw [eo]
  show band arg4 arg5 arg6 X4 X5 X6 k x = band arg4 arg5 arg6 X4 X5 X6 k _
  congr 1
  funext a
  apply Fin.ext
  match a with
  | ⟨0, _⟩ => show (x 0).val = (((piece arg4 arg5 arg6 X4 X5 X6 k).1.emb x) 0).val % 128; rw [e0]; omega
  | ⟨1, _⟩ => show (x 1).val = (((piece arg4 arg5 arg6 X4 X5 X6 k).1.emb x) 1).val; rw [e1]

/-- THE READ-BACK: a load of the whole scratch after the loop reads the tile, whatever the scratch held before. -/
theorem readCov_pb (off : Fin 2 → Nat) (hoff : off = fun _ => 0) (inb : ∀ a, off a + S1024x1024.size a ≤ S1024x1024.size a) :
    View.readCov arg8.view (pb_k0_t1 (F := F) 𝒱 c bd i arg3 harg3 arg4 harg4 arg5 harg5 arg6 harg6 arg7 harg7 arg8 harg8 X4 X5 X6 k0_t1_loop.trips)
        (Rect.unit (s := S1024x1024) off S1024x1024.size inb).toLoadRect
      = tile arg4 arg5 arg6 X4 X5 X6 := by
  rw [View.readCov_eq_canon_ld _ _ _ (pb_cover 𝒱 c bd i arg3 harg3 arg4 harg4 arg5 harg5 arg6 harg6 arg7 harg7 arg8 harg8 X4 X5 X6), View.ld_unit_zero hoff]
  funext y
  refine View.canon_apply_of_pieces (tile arg4 arg5 arg6 X4 X5 X6) _ (fun p hp x => ?_) y (pb_cover 𝒱 c bd i arg3 harg3 arg4 harg4 arg5 harg5 arg6 harg6 arg7 harg7 arg8 harg8 X4 X5 X6 y)
  obtain ⟨k, rfl⟩ := eq_piece_of_mem_pb 𝒱 c bd i arg3 harg3 arg4 harg4 arg5 harg5 arg6 harg6 arg7 harg7 arg8 harg8 X4 X5 X6 _ (Nat.le_refl _) p hp
  exact piece_eq_tile arg4 arg5 arg6 X4 X5 X6 k x

end Cert.Kernel.Trip

end
-- ==== Proof.KernelIdealTrip.lean ====
/-
  The counted loop of the kernel body, read as values. Trip `k` (of eight) loads rows `128k … 128k+127` of the packed
  weight slab, row `k` of the zero-point slab and row `k` of the scale slab, and stores their dequantized product into
  rows `128k … 128k+127` of the 1024×1024 scratch tile. So the trips' stores are eight disjoint row bands that tile the
  scratch: after the loop every element of the scratch was written, by exactly the trip `r / 128` that owns its row `r`,
  and what a whole-tile load reads back does not depend on what the scratch held before.
-/
import proofs.«416305_j86071144611917_3_alg».proof.Proof.Gen.KernelIdeal.Loops
import Idealize.ShloMosaic.Lib.Pipeline.Value
import Idealize.ShloMosaic.Lib.Pipeline.FrameBody
import Idealize.ShloMosaic.Lib.ValueIdx

set_option maxRecDepth 16384

noncomputable section

namespace Cert.KernelIdeal.Trip

open Cert.KernelIdeal Cert.KernelIdeal.Gen Idealize.ShloMosaic Idealize.ShloMosaic.TcCoe Idealize.ShloMosaic.ValueIdx Idealize.SL.Sem

variable {F : FTy → Type} [FloatOps F]

/-- The loop runs eight trips. -/
theorem trips_eq : k0_t1_loop.trips = 8 := by decide +kernel

variable (𝒱 : Variants) (c : Dev nD) (bd : Option 𝒱.V) (i : grid0.Coords) (arg3 : Memref sig .tc .vmem S2048x1024 .bf16) (harg3 : arg3.IsWhole) (arg4 : Memref sig .tc .vmem S1024x128 .i32) (harg4 : arg4.IsWhole) (arg5 : Memref sig .tc .vmem S8x128 .i32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S1024x1024 .bf16) (harg8 : arg8.IsWhole)
  (X4 : BufTy.Contents (Elt F) arg4.view.ty) (X5 : BufTy.Contents (Elt F) arg5.view.ty) (X6 : BufTy.Contents (Elt F) arg6.view.ty)

/-- What trip `k` stores: the dequantized 128-row band of the slabs it loads. -/
def band (k : Fin k0_t1_loop.trips) : Vec F S128x1024 .bf16 :=
  k0_pay2 (View.readAt (Elt F) arg4.view (Rect.unit (s := S1024x128) (k0_off1 k) S128x128.size (k0_off1_inb k)).toLoadRect X4)
    (View.readAt (Elt F) arg5.view (Rect.unit (s := S8x128) (k0_off2 k) S1x128.size (k0_off2_inb k)).toLoadRect X5)
    (View.readAt (Elt F) arg6.view (Rect.unit (s := S8x1024) (k0_off3 k) S1x1024.size (k0_off3_inb k)).toLoadRect X6)

/-- Trip `k`'s store: the band, through the rectangle of rows `128k … 128k+127`. -/
def piece (k : Fin k0_t1_loop.trips) : View.Piece (Elt F) S1024x1024 .bf16 :=
  ⟨Rect.unit (s := S1024x1024) (k0_off4 k) S128x1024.size (k0_off4_inb k), band arg4 arg5 arg6 X4 X5 X6 k⟩

/-- One trip leaves exactly its one store. -/
theorem tripL_eq (k : Fin k0_t1_loop.trips) :
    tripL_k0_t1 (F := F) 𝒱 c bd i arg3 harg3 arg4 harg4 arg5 harg5 arg6 harg6 arg7 harg7 arg8 harg8 X4 X5 X6 k = [piece arg4 arg5 arg6 X4 X5 X6 k] := by
  unfold tripL_k0_t1 trip_k0_t1
  rfl

/-- The stores of the trips before `n` include trip `k`'s, for every `k < n`. -/
theorem piece_mem_pb : ∀ (n : ℕ) (hn : n ≤ k0_t1_loop.trips) (k : Fin k0_t1_loop.trips), k.val < n →
    piece arg4 arg5 arg6 X4 X5 X6 k ∈ pb_k0_t1 (F := F) 𝒱 c bd i arg3 harg3 arg4 harg4 arg5 harg5 arg6 harg6 arg7 harg7 arg8 harg8 X4 X5 X6 n
  | 0, _, k, hk => absurd hk (Nat.not_lt_zero _)
  | n + 1, hn, k, hk => by
    have e := pb_k0_t1_succ (F := F) 𝒱 c bd i arg3 harg3 arg4 harg4 arg5 harg5 arg6 harg6 arg7 harg7 arg8 harg8 X4 X5 X6 ⟨n, hn⟩
    rw [tripL_eq] at e
    rw [show n + 1 = (⟨n, hn⟩ : Fin k0_t1_loop.trips).val + 1 from rfl, e]
    by_cases h : k.val = n
    · obtain rfl : k = ⟨n, hn⟩ := Fin.ext h
      exact List.mem_cons_self
    · exact List.mem_cons_of_mem _ (piece_mem_pb n (Nat.le_of_succ_le hn) k (by omega))

/-- And nothing else: every store of the trips before `n` is some trip's. -/
theorem eq_piece_of_mem_pb : ∀ (n : ℕ) (hn : n ≤ k0_t1_loop.trips) (p : View.Piece (Elt F) S1024x1024 .bf16),
    p ∈ pb_k0_t1 (F := F) 𝒱 c bd i arg3 harg3 arg4 harg4 arg5 harg5 arg6 harg6 arg7 harg7 arg8 harg8 X4 X5 X6 n → ∃ k : Fin k0_t1_loop.trips, p = piece arg4 arg5 arg6 X4 X5 X6 k
  | 0, _, p, hp => by rw [pb_k0_t1.eq_1] at hp; exact absurd hp List.not_mem_nil
  | n + 1, hn, p, hp => by
    have e := pb_k0_t1_succ (F := F) 𝒱 c bd i arg3 harg3 arg4 harg4 arg5 harg5 arg6 harg6 arg7 harg7 arg8 harg8 X4 X5 X6 ⟨n, hn⟩
    rw [tripL_eq] at e
    rw [show n + 1 = (⟨n, hn⟩ : Fin k0_t1_loop.trips).val + 1 from rfl, e] at hp
    rcases List.mem_cons.mp hp with rfl | hp'
    · exact ⟨⟨n, hn⟩, rfl⟩
    · exact eq_piece_of_mem_pb n (Nat.le_of_succ_le hn) p hp'

/-- The trip that owns row `r` of the scratch: `r / 128`. -/
def owner (y : S1024x1024.Idx) : Fin k0_t1_loop.trips := ⟨(y 0).val / 128, by
  rw [trips_eq]; have h : (y 0).val < 1024 := (y 0).isLt; omega⟩

/-- An element of the scratch lies in the band of the trip that owns its row. -/
theorem mem_owner (y : S1024x1024.Idx) : y ∈ (piece arg4 arg5 arg6 X4 X5 X6 (owner y)).1.set := by
  show y ∈ (Rect.unit (s := S1024x1024) (k0_off4 (owner y)) S128x1024.size (k0_off4_inb (owner y))).set
  rw [Rect.mem_set_unit, k0_off4_eq]
  have h0 : (y 0).val < 1024 := (y 0).isLt
  have h1 : (y 1).val < 1024 := (y 1).isLt
  intro a
  match a with
  | ⟨0, _⟩ => show 128 * ((y 0).val / 128) ≤ (y 0).val ∧ (y 0).val < 128 * ((y 0).val / 128) + 128; omega
  | ⟨1, _⟩ => show 0 ≤ (y 1).val ∧ (y 1).val < 0 + 1024; omega

/-- THE COVER: after all the trips every element of the scratch has been stored. -/
theorem pb_cover (y : S1024x1024.Idx) :
    ∃ p ∈ pb_k0_t1 (F := F) 𝒱 c bd i arg3 harg3 arg4 harg4 arg5 harg5 arg6 harg6 arg7 harg7 arg8 harg8 X4 X5 X6 k0_t1_loop.trips, y ∈ p.1.set :=
  ⟨_, piece_mem_pb 𝒱 c bd i arg3 harg3 arg4 harg4 arg5 harg5 arg6 harg6 arg7 harg7 arg8 harg8 X4 X5 X6 _ (Nat.le_refl _) (owner y) (owner y).isLt, mem_owner arg4 arg5 arg6 X4 X5 X6 y⟩

/-- The scratch tile as ONE function of the three slabs: row `r` reads row `r % 128` of the band of trip `r / 128`. -/
def tile (y : S1024x1024.Idx) : Elt F .bf16 :=
  band arg4 arg5 arg6 X4 X5 X6 (owner y) (ix2 (⟨(y 0).val % 128, Nat.mod_lt _ (by decide)⟩ : Fin 128) (y 1))

/-- Every store of the loop is the tile's restriction to its rectangle. -/
theorem piece_eq_tile (k : Fin k0_t1_loop.trips) (x : (piece arg4 arg5 arg6 X4 X5 X6 k).1.shape.Idx) :
    (piece arg4 arg5 arg6 X4 X5 X6 k).2 x = tile arg4 arg5 arg6 X4 X5 X6 ((piece arg4 arg5 arg6 X4 X5 X6 k).1.emb x) := by
  have hk : k.val < 8 := lt_of_lt_of_eq k.isLt trips_eq
  have hx0 : (x 0).val < 128 := (x 0).isLt
  have e0 : (((piece arg4 arg5 arg6 X4 X5 X6 k).1.emb x) 0).val = 128 * k.val + (x 0).val := by
    show (Rect.unit (s := S1024x1024) (k0_off4 k) S128x1024.size (k0_off4_inb k)).off 0
      + (Rect.unit (s := S1024x1024) (k0_off4 k) S128x1024.size (k0_off4_inb k)).stride 0 * (x 0).val = _
    show (k0_off4 k) 0 + 1 * (x 0).val = _
    rw [k0_off4_eq]; show 128 * k.val + 1 * (x 0).val = _; omega
  have e1 : (((piece arg4 arg5 arg6 X4 X5 X6 k).1.emb x) 1).val = (x 1).val := by
    show (k0_off4 k) 1 + 1 * (x 1).val = _
    rw [k0_off4_eq]; show 0 + 1 * (x 1).val = _; omega
  have eo : owner ((piece arg4 arg5 arg6 X4 X5 X6 k).1.emb x) = k := Fin.ext (by
    show (((piece arg4 arg5 arg6 X4 X5 X6 k).1.emb x) 0).val / 128 = k.val
    rw [e0]; omega)
  unfold tile
  rw [eo]
  show band arg4 arg5 arg6 X4 X5 X6 k x = band arg4 arg5 arg6 X4 X5 X6 k _
  congr 1
  funext a
  apply Fin.ext
  match a with
  | ⟨0, _⟩ => show (x 0).val = (((piece arg4 arg5 arg6 X4 X5 X6 k).1.emb x) 0).val % 128; rw [e0]; omega
  | ⟨1, _⟩ => show (x 1).val = (((piece arg4 arg5 arg6 X4 X5 X6 k).1.emb x) 1).val; rw [e1]

/-- THE READ-BACK: a load of the whole scratch after the loop reads the tile, whatever the scratch held before. -/
theorem readCov_pb (off : Fin 2 → Nat) (hoff : off = fun _ => 0) (inb : ∀ a, off a + S1024x1024.size a ≤ S1024x1024.size a) :
    View.readCov arg8.view (pb_k0_t1 (F := F) 𝒱 c bd i arg3 harg3 arg4 harg4 arg5 harg5 arg6 harg6 arg7 harg7 arg8 harg8 X4 X5 X6 k0_t1_loop.trips)
        (Rect.unit (s := S1024x1024) off S1024x1024.size inb).toLoadRect
      = tile arg4 arg5 arg6 X4 X5 X6 := by
  rw [View.readCov_eq_canon_ld _ _ _ (pb_cover 𝒱 c bd i arg3 harg3 arg4 harg4 arg5 harg5 arg6 harg6 arg7 harg7 arg8 harg8 X4 X5 X6), View.ld_unit_zero hoff]
  funext y
  refine View.canon_apply_of_pieces (tile arg4 arg5 arg6 X4 X5 X6) _ (fun p hp x => ?_) y (pb_cover 𝒱 c bd i arg3 harg3 arg4 harg4 arg5 harg5 arg6 harg6 arg7 harg7 arg8 harg8 X4 X5 X6 y)
  obtain ⟨k, rfl⟩ := eq_piece_of_mem_pb 𝒱 c bd i arg3 harg3 arg4 harg4 arg5 harg5 arg6 harg6 arg7 harg7 arg8 harg8 X4 X5 X6 _ (Nat.le_refl _) p hp
  exact piece_eq_tile arg4 arg5 arg6 X4 X5 X6 k x

end Cert.KernelIdeal.Trip

end
-- ==== Proof.Spec.lean ====
/-
  The mathematics both programs compute, stated once over literal shapes and over no program.

  A packed word holds eight four-bit nibbles; nibble `p` of word `w` is `(w >>ₛ 4p) & 15`. The weight matrix is
  dequantized group-wise: row `i` belongs to group `i / 128`, column `o` lives in packed column `o / 8` at nibble
  `o % 8`, and
      weight i o = (nib qw[i, o/8] (o%8) − nib qz[i/128, o/8] (o%8)) · sc[i/128, o]
  with the two nibbles read as signed integers into the extended reals. The result is the matrix product
      out[b, s, o] = ∑ i < 4096, x[b, s, i] · weight i o.
  The sum over `i` is also stated as a sum over an initial segment of the naturals (`partialDot`), which is what a
  K-blocked accumulation builds up tile by tile: the segment grows by 1024 terms per tile (`partialDot_succ_tile`),
  and the full segment is the sum over `Fin K` (`partialDot_full`). Only the commutative-monoid structure of the
  extended reals' addition is used; no distributivity, hence no finiteness.
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

/-! ## Nibbles -/

/-- The shift amount of nibble `p`: the word `4p`. -/
def shamt (p : Fin 8) : BitVec 32 := IntOp.muli (BitVec.ofNat 32 p.val) 4#32

/-- Every nibble's shift amount is below the word width. -/
theorem shamt_lt (p : Fin 8) : (shamt p).toNat < 32 := by
  revert p; decide

/-- Below the word width the arithmetic shift is the same word on every unit. -/
theorem shrsi_unit (u u' : ArithUnit) (w : BitVec 32) (p : Fin 8) :
    IntOp.shrsi u w (shamt p) = IntOp.shrsi u' w (shamt p) := by
  unfold IntOp.shrsi
  rw [if_pos (shamt_lt p), if_pos (shamt_lt p)]

/-- Nibble `p` of the packed word `w`: shifted down arithmetically by `4p`, masked to four bits. -/
def nib (w : BitVec 32) (p : Fin 8) : BitVec 32 := IntOp.andi (IntOp.shrsi .vector w (shamt p)) 15#32

theorem nib_host (w : BitVec 32) (p : Fin 8) : IntOp.andi (IntOp.shrsi .host w (shamt p)) 15#32 = nib w p := by
  unfold nib; rw [shrsi_unit .host .vector]

/-- A nibble as an extended real: the word read as a signed integer. -/
def nibR (w : BitVec 32) (p : Fin 8) : EReal := (FloatOps.sitofp (F := Ideal) .f32 (nib w p) : Ideal .f32)

/-! ## Column arithmetic: a column `o` is nibble `o % 8` of packed column `o / 8` -/

/-- The packed column of column `o` (of `N = 8 * n` columns). -/
def pcol {n N : Nat} (hN : N = 8 * n) (o : Fin N) : Fin n := ⟨o.val / 8, by have := o.isLt; omega⟩
/-- The nibble of column `o`. -/
def pnib {N : Nat} (o : Fin N) : Fin 8 := ⟨o.val % 8, Nat.mod_lt _ (by decide)⟩
/-- The group of row `i`: 128 rows to a group. -/
def grp (i : Fin 4096) : Fin 32 := ⟨i.val / 128, by have := i.isLt; omega⟩

@[simp] theorem pcol_val {n N : Nat} (hN : N = 8 * n) (o : Fin N) : (pcol hN o).val = o.val / 8 := rfl
@[simp] theorem pnib_val {N : Nat} (o : Fin N) : (pnib o).val = o.val % 8 := rfl
@[simp] theorem grp_val (i : Fin 4096) : (grp i).val = i.val / 128 := rfl

/-! ## The dequantized weight, for `n` packed columns holding `N = 8 n` columns (1376 and 11008 as given, 1408 and 11264 padded) -/

/-- `weight i o = (nib qw[i, o/8] (o%8) − nib qz[i/128, o/8] (o%8)) · sc[i/128, o]`. -/
def weight {n N : Nat} (hN : N = 8 * n) (qw : (⟨2, ![4096, n]⟩ : Shape).Idx → BitVec 32) (qz : (⟨2, ![32, n]⟩ : Shape).Idx → BitVec 32)
    (sc : (⟨2, ![32, N]⟩ : Shape).Idx → EReal) (i : Fin 4096) (o : Fin N) : EReal :=
  (nibR (qw (ix2 i (pcol hN o))) (pnib o) - nibR (qz (ix2 (grp i) (pcol hN o))) (pnib o)) * sc (ix2 (grp i) o)

/-- The result: `out[b, s, o] = ∑ i, x[b, s, i] · weight i o`. -/
def result (x : (⟨3, ![2, 2048, 4096]⟩ : Shape).Idx → EReal) (qw : (⟨2, ![4096, 1376]⟩ : Shape).Idx → BitVec 32)
    (qz : (⟨2, ![32, 1376]⟩ : Shape).Idx → BitVec 32) (sc : (⟨2, ![32, 11008]⟩ : Shape).Idx → EReal) :
    (⟨3, ![2, 2048, 11008]⟩ : Shape).Idx → EReal :=
  fun j => ∑ i : Fin 4096, x (ix3 (j 0) (j 1) i) * weight (n := 1376) (N := 11008) rfl qw qz sc i (j 2)

/-! ## A dot product built up over an initial segment -/

/-- The first `n` terms of `∑ i < K, a i · b i` (terms past `K` are zero). -/
def partialDot {K : Nat} (a b : Fin K → EReal) (n : Nat) : EReal :=
  ∑ i ∈ Finset.range n, if h : i < K then a ⟨i, h⟩ * b ⟨i, h⟩ else 0

theorem partialDot_zero {K : Nat} (a b : Fin K → EReal) : partialDot a b 0 = 0 := by
  unfold partialDot; simp

/-- One more tile of `T` terms: the segment up to `n + T` is the segment up to `n` plus the tile's own sum. -/
theorem partialDot_add_tile {K : Nat} (a b : Fin K → EReal) (n T : Nat) (h : n + T ≤ K) :
    partialDot a b (n + T) = partialDot a b n + ∑ k : Fin T, a ⟨n + k.val, by have := k.isLt; omega⟩ * b ⟨n + k.val, by have := k.isLt; omega⟩ := by
  unfold partialDot
  rw [Finset.sum_range_add, ← Fin.sum_univ_eq_sum_range (fun x => if h : n + x < K then a ⟨n + x, h⟩ * b ⟨n + x, h⟩ else 0) T]
  congr 1
  refine Finset.sum_congr rfl fun k _ => ?_
  rw [dif_pos (by have := k.isLt; omega)]

/-- The full segment is the whole sum. -/
theorem partialDot_full {K : Nat} (a b : Fin K → EReal) : partialDot a b K = ∑ i : Fin K, a i * b i := by
  unfold partialDot
  rw [← Fin.sum_univ_eq_sum_range (fun x => if h : x < K then a ⟨x, h⟩ * b ⟨x, h⟩ else 0) K]
  refine Finset.sum_congr rfl fun k _ => ?_
  rw [dif_pos k.isLt]

end Cert.Dequant

end
-- ==== Proof.Payload.lean ====
/-
  The kernel body's three stored values, read at an index over the extended reals.
  The reset stores zero. One loop trip stores, for a 128-row group, at row `a` and column `cc` of the 1024-column tile,
  `(nib qw[a, cc/8] (cc%8) − nib qz[0, cc/8] (cc%8)) · sc[0, cc]` of the three slabs it loaded. The accumulation stores
  `acc[r, cc] + ∑ kk < 1024, x[r, kk] · w[kk, cc]`.
-/
import proofs.«416305_j86071144611917_3_alg».proof.Proof.Gen.KernelIdeal.Skeleton
import proofs.«416305_j86071144611917_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The reset's payload is zero everywhere. -/
theorem pay1_apply (j : S2048x1024.Idx) : k0_pay1 (F := Ideal) j = 0 := by
  unfold k0_pay1
  show Ideal.ofBits .f32 0x00000000#32 = 0
  exact Ideal.ofBits_zero_f32

/-! ## The nibble arrays read at an index -/

open Cert.Dequant in
/-- The shift amounts: the nibble number along the last axis, times four. -/
theorem shifts_apply (h : S1x1x8.Iotas .tc 32 [2]) (u1 u2 : Fin 1) (p : Fin 8) :
    muli (iota .tc S1x1x8 32 [2] h) (broadcast S1x1x8 4#32) (ix3 u1 u2 p) = shamt p := by
  show IntOp.muli (iota .tc S1x1x8 32 [2] h (ix3 u1 u2 p)) 4#32 = _
  rw [iota_single_apply]
  rfl

/-- A [128,128] array given a trailing unit axis and repeated eight times along it reads its own entry. -/
theorem qrep_apply (x : IVec S128x128 32) (h1 : S128x128.ShapeCasts S128x128x1) (h2 : S128x128x1.Broadcasts S128x128x8)
    (a c : Fin 128) (p : Fin 8) :
    broadcastTo S128x128x8 (shapeCast S128x128x1 x h1) h2 (ix3 a c p) = x (ix2 a c) := by
  refine (broadcastTo_apply _ h2 (ix3 a c p) (ix3 a c (0 : Fin 1)) fun ax => ?_).trans ?_
  · match ax with
    | ⟨0, _⟩ => rfl
    | ⟨1, _⟩ => rfl
    | ⟨2, _⟩ => rfl
  · refine shapeCast_apply x h1 (ix3 a c (0 : Fin 1)) (ix2 a c) ?_
    rw [Shape.rowMajor_val_three, Shape.rowMajor_val_two]
    show a.val * 128 + c.val = (a.val * 128 + c.val) * 1 + 0
    omega

/-- The eight shift amounts repeated over every row and packed column. -/
theorem qsh_apply (sh : IVec S1x1x8 32) (h3 : S1x1x8.Broadcasts S128x128x8) (a c : Fin 128) (p : Fin 8) :
    broadcastTo S128x128x8 sh h3 (ix3 a c p) = sh (ix3 (0 : Fin 1) (0 : Fin 1) p) := by
  refine broadcastTo_apply _ h3 (ix3 a c p) (ix3 (0 : Fin 1) (0 : Fin 1) p) fun ax => ?_
  match ax with
  | ⟨0, _⟩ => rfl
  | ⟨1, _⟩ => rfl
  | ⟨2, _⟩ => rfl

open Cert.Dequant in
/-- The weight nibbles as a [128,1024] array: column `cc` is nibble `cc % 8` of packed column `cc / 8`. -/
theorem qnib_apply (x : IVec S128x128 32) (sh : IVec S1x1x8 32) (h1 : S128x128.ShapeCasts S128x128x1)
    (h2 : S128x128x1.Broadcasts S128x128x8) (h3 : S1x1x8.Broadcasts S128x128x8) (h4 : S128x128x8.ShapeCasts S128x1024)
    (a : Fin 128) (cc : Fin 1024) :
    shapeCast S128x1024 (andi (shrsi (broadcastTo S128x128x8 (shapeCast S128x128x1 x h1) h2) (broadcastTo S128x128x8 sh h3))
        (broadcast S128x128x8 15#32)) h4 (ix2 a cc)
      = IntOp.andi (IntOp.shrsi .vector (x (ix2 a (pcol (n := 128) (N := 1024) rfl cc))) (sh (ix3 (0 : Fin 1) (0 : Fin 1) (pnib cc)))) 15#32 := by
  refine (shapeCast_apply _ h4 (ix2 a cc) (ix3 a (pcol (n := 128) (N := 1024) rfl cc) (pnib cc)) ?_).trans ?_
  · rw [Shape.rowMajor_val_three, Shape.rowMajor_val_two]
    show (a.val * 128 + cc.val / 8) * 8 + cc.val % 8 = a.val * 1024 + cc.val
    omega
  · show IntOp.andi (IntOp.shrsi .vector (broadcastTo S128x128x8 (shapeCast S128x128x1 x h1) h2 (ix3 a (pcol (n := 128) (N := 1024) rfl cc) (pnib cc)))
        (broadcastTo S128x128x8 sh h3 (ix3 a (pcol (n := 128) (N := 1024) rfl cc) (pnib cc)))) 15#32 = _
    rw [qrep_apply, qsh_apply]

/-- A [1,128] array flattened, given a leading and a trailing unit axis, and repeated eight times reads its own entry. -/
theorem zrep_apply (x : IVec S1x128 32) (h0 : S1x128.ShapeCasts S128) (h1 : S128.ShapeCasts S1x128x1) (h2 : S1x128x1.Broadcasts S1x128x8)
    (u : Fin 1) (c : Fin 128) (p : Fin 8) :
    broadcastTo S1x128x8 (shapeCast S1x128x1 (shapeCast S128 x h0) h1) h2 (ix3 u c p) = x (ix2 (0 : Fin 1) c) := by
  refine (broadcastTo_apply _ h2 (ix3 u c p) (ix3 (0 : Fin 1) c (0 : Fin 1)) fun ax => ?_).trans ?_
  · match ax with
    | ⟨0, _⟩ => rfl
    | ⟨1, _⟩ => rfl
    | ⟨2, _⟩ => rfl
  · refine (shapeCast_apply _ h1 (ix3 (0 : Fin 1) c (0 : Fin 1)) (ix1 c) ?_).trans ?_
    · rw [Shape.rowMajor_val_three, Shape.rowMajor_val_one]
      show c.val = (0 * 128 + c.val) * 1 + 0
      omega
    · exact shapeCast_1a_a_apply x h0 c

/-- The eight shift amounts repeated over every packed column of the one row. -/
theorem zsh_apply (sh : IVec S1x1x8 32) (h3 : S1x1x8.Broadcasts S1x128x8) (u : Fin 1) (c : Fin 128) (p : Fin 8) :
    broadcastTo S1x128x8 sh h3 (ix3 u c p) = sh (ix3 (0 : Fin 1) (0 : Fin 1) p) := by
  refine broadcastTo_apply _ h3 (ix3 u c p) (ix3 (0 : Fin 1) (0 : Fin 1) p) fun ax => ?_
  match ax with
  | ⟨0, _⟩ => rfl
  | ⟨1, _⟩ => rfl
  | ⟨2, _⟩ => rfl

open Cert.Dequant in
/-- The zero-point nibbles as a [1,1024] row. -/
theorem znib_apply (x : IVec S1x128 32) (sh : IVec S1x1x8 32) (h0 : S1x128.ShapeCasts S128) (h1 : S128.ShapeCasts S1x128x1)
    (h2 : S1x128x1.Broadcasts S1x128x8) (h3 : S1x1x8.Broadcasts S1x128x8) (h4 : S1x128x8.ShapeCasts S1x1024)
    (cc : Fin 1024) :
    shapeCast S1x1024 (andi (shrsi (broadcastTo S1x128x8 (shapeCast S1x128x1 (shapeCast S128 x h0) h1) h2) (broadcastTo S1x128x8 sh h3))
        (broadcast S1x128x8 15#32)) h4 (ix2 (0 : Fin 1) cc)
      = IntOp.andi (IntOp.shrsi .vector (x (ix2 (0 : Fin 1) (pcol (n := 128) (N := 1024) rfl cc))) (sh (ix3 (0 : Fin 1) (0 : Fin 1) (pnib cc)))) 15#32 := by
  refine (shapeCast_apply _ h4 (ix2 (0 : Fin 1) cc) (ix3 (0 : Fin 1) (pcol (n := 128) (N := 1024) rfl cc) (pnib cc)) ?_).trans ?_
  · rw [Shape.rowMajor_val_three, Shape.rowMajor_val_two]
    show (0 * 128 + cc.val / 8) * 8 + cc.val % 8 = 0 * 1024 + cc.val
    omega
  · show IntOp.andi (IntOp.shrsi .vector (broadcastTo S1x128x8 (shapeCast S1x128x1 (shapeCast S128 x h0) h1) h2 (ix3 (0 : Fin 1) (pcol (n := 128) (N := 1024) rfl cc) (pnib cc)))
        (broadcastTo S1x128x8 sh h3 (ix3 (0 : Fin 1) (pcol (n := 128) (N := 1024) rfl cc) (pnib cc)))) 15#32 = _
    rw [zrep_apply, zsh_apply]

/-- The scales flattened and given their leading unit axis back read their own entry. -/
theorem scale_apply (x : FVec Ideal S1x1024 .f32) (h0 : S1x1024.ShapeCasts S1024) (h1 : S1024.ShapeCasts S1x1024) (cc : Fin 1024) :
    shapeCast S1x1024 (shapeCast S1024 x h0) h1 (ix2 (0 : Fin 1) cc) = x (ix2 (0 : Fin 1) cc) :=
  (shapeCast_a_1a_apply _ h1 (0 : Fin 1) cc).trans (shapeCast_1a_a_apply x h0 cc)

open Cert.Dequant in
/-- A word shifted by the computed amount of nibble `p` and masked is that nibble. -/
theorem nib_of_shifts (w : BitVec 32) (h : S1x1x8.Iotas .tc 32 [2]) (p : Fin 8) :
    IntOp.andi (IntOp.shrsi .vector w (muli (iota .tc S1x1x8 32 [2] h) (broadcast S1x1x8 4#32) (ix3 (0 : Fin 1) (0 : Fin 1) p))) 15#32
      = nib w p := by
  rw [shifts_apply]
  rfl

/-- Over the extended reals the narrowing to sixteen bits is the identity, and the difference and product are taken entrywise. -/
theorem deq_apply (Q Z W : FVec Ideal S128x1024 .f32) (h : FTy.bf16.bits < FTy.f32.bits) (j : S128x1024.Idx) :
    (truncf .bf16 (mulf (subf Q Z) W) h : FVec Ideal S128x1024 .bf16) j = ((Q j : EReal) - Z j) * W j := rfl

/-- One trip's payload at row `a` of the group and column `cc` of the tile. -/
theorem pay2_apply (v18 : Vec Ideal S128x128 .i32) (v29 : Vec Ideal S1x128 .i32) (v40 : Vec Ideal S1x1024 .f32)
    (a : Fin 128) (cc : Fin 1024) :
    k0_pay2 (F := Ideal) v18 v29 v40 (ix2 a cc)
      = (Cert.Dequant.nibR (v18 (ix2 a (Cert.Dequant.pcol (n := 128) (N := 1024) rfl cc))) (Cert.Dequant.pnib cc)
          - Cert.Dequant.nibR (v29 (ix2 (0 : Fin 1) (Cert.Dequant.pcol (n := 128) (N := 1024) rfl cc))) (Cert.Dequant.pnib cc))
        * v40 (ix2 (0 : Fin 1) cc) := by
  unfold k0_pay2
  rw [shapeCast_self, shapeCast_self]
  refine (deq_apply _ _ _ _ _).trans ?_
  refine congrArg₂ (· * ·) (congrArg₂ (· - ·) ?_ ?_) ?_
  · exact congrArg (FloatOps.sitofp (F := Ideal) .f32) ((qnib_apply v18 _ _ _ _ _ a cc).trans (nib_of_shifts _ _ _))
  · refine (broadcastTo_1b_ab_apply _ _ a cc).trans ?_
    exact congrArg (FloatOps.sitofp (F := Ideal) .f32) ((znib_apply v29 _ _ _ _ _ _ cc).trans (nib_of_shifts _ _ _))
  · exact (broadcastTo_1b_ab_apply _ _ a cc).trans (scale_apply v40 _ _ cc)

/-! ## The product's operand indices, axis by axis -/

/-- The left operand's row is the output's row. -/
theorem lhs_pay3_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
/-- The left operand's column is the contraction index. -/
theorem lhs_pay3_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
/-- The right operand's row is the contraction index. -/
theorem rhs_pay3_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
/-- The right operand's column is the output's column. -/
theorem rhs_pay3_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The accumulation's payload at row `r` and column `cc`. -/
theorem pay3_apply (v7 : Vec Ideal S2048x1024 .f32) (v9 : Vec Ideal S2048x1024 .bf16) (v11 : Vec Ideal S1024x1024 .bf16)
    (r : Fin 2048) (cc : Fin 1024) :
    k0_pay3 (F := Ideal) v7 v9 v11 (ix2 r cc) = v7 (ix2 r cc) + ∑ kk : Fin 1024, v9 (ix2 r kk) * v11 (ix2 kk cc) := by
  unfold k0_pay3
  rw [shapeCast_self, shapeCast_self]
  refine (addf_apply _ _ _).trans ?_
  refine congrArg (v7 (ix2 r cc) + ·) ?_
  simp only [matmul]
  rw [Ideal.matmul_constant_zero_apply, ← Equiv.sum_comp (ValueIdx.contrEquiv1 dot_S2048x1024_S1024x1024_S2048x1024_1_0_0_1_n_n 1024 rfl rfl).symm]
  refine Finset.sum_congr rfl fun k _ => ?_
  have hk := ValueIdx.contrEquiv1_symm_val dot_S2048x1024_S1024x1024_S2048x1024_1_0_0_1_n_n 1024 rfl rfl k
  have el : dot_S2048x1024_S1024x1024_S2048x1024_1_0_0_1_n_n.lhsIdx (ix2 r cc) ((ValueIdx.contrEquiv1 dot_S2048x1024_S1024x1024_S2048x1024_1_0_0_1_n_n 1024 rfl rfl).symm k) = ix2 r k := funext fun a => Fin.ext (by
    match a with
    | ⟨0, _⟩ => exact lhs_pay3_0 _ _
    | ⟨1, _⟩ => exact (lhs_pay3_1 _ _).trans hk)
  have er : dot_S2048x1024_S1024x1024_S2048x1024_1_0_0_1_n_n.rhsIdx (ix2 r cc) ((ValueIdx.contrEquiv1 dot_S2048x1024_S1024x1024_S2048x1024_1_0_0_1_n_n 1024 rfl rfl).symm k) = ix2 k cc := funext fun a => Fin.ext (by
    match a with
    | ⟨0, _⟩ => exact (rhs_pay3_0 _ _).trans hk
    | ⟨1, _⟩ => exact rhs_pay3_1 _ _)
  rw [el, er]

end Cert.KernelIdeal.Payload

end
-- ==== Proof.KernelIdealCase.lean ====
/-
  What one run of the kernel body leaves in the output block, over the extended reals.
  The loop first fills the scratch with the dequantized tile of the three slabs the point was given,
      wtile[r, cc] = (nib qw[r, cc/8] (cc%8) − nib qz[r/128, cc/8] (cc%8)) · sc[r/128, cc]      (r, cc < 1024),
  whatever the scratch held before. Then the body adds `x · wtile` to the output block: at a point that starts a new
  output block (the reduction coordinate is 0) to the zero it has just stored, at every other point to what the
  point before left there.
-/
import proofs.«416305_j86071144611917_3_alg».proof.Proof.KernelIdealFrameP
import proofs.«416305_j86071144611917_3_alg».proof.Proof.KernelIdealTrip
import proofs.«416305_j86071144611917_3_alg».proof.Proof.Payload
import proofs.«416305_j86071144611917_3_alg».proof.Proof.Spec
import Idealize.ShloMosaic.Lib.Pipeline.Value
import Idealize.ShloMosaic.Lib.ValueIdx

set_option maxRecDepth 16384

noncomputable section

namespace Cert.KernelIdeal.Case

open Cert.KernelIdeal Cert.KernelIdeal.Gen Cert.KernelIdeal.GenP Idealize.ShloMosaic Idealize.ShloMosaic.TcCoe Idealize.ShloMosaic.ValueIdx Idealize.SL.Sem
open Cert.Dequant

theorem hz : (![0, 0] : Fin 2 → Nat) = fun _ => 0 := funext fun a => by fin_cases a <;> rfl

/-- The dequantized 1024×1024 tile of a packed-weight slab, a zero-point slab and a scale slab. -/
def wtile (x1 : Vec Ideal S1024x128 .i32) (x2 : Vec Ideal S8x128 .i32) (x3 : Vec Ideal S8x1024 .f32) : Vec Ideal S1024x1024 .bf16 :=
  fun y =>
    (nibR (x1 (ix2 (y 0) (pcol (n := 128) (N := 1024) rfl (y 1)))) (pnib (y 1))
      - nibR (x2 (ix2 (⟨(y 0).val / 128, by have h : (y 0).val < 1024 := (y 0).isLt; omega⟩ : Fin 8) (pcol (n := 128) (N := 1024) rfl (y 1)))) (pnib (y 1)))
    * x3 (ix2 (⟨(y 0).val / 128, by have h : (y 0).val < 1024 := (y 0).isLt; omega⟩ : Fin 8) (y 1))

/-- The tile at row `kk`, column `cc`. -/
theorem wtile_apply (x1 : Vec Ideal S1024x128 .i32) (x2 : Vec Ideal S8x128 .i32) (x3 : Vec Ideal S8x1024 .f32) (kk cc : Fin 1024) :
    wtile x1 x2 x3 (ix2 kk cc)
      = (nibR (x1 (ix2 kk (pcol (n := 128) (N := 1024) rfl cc))) (pnib cc)
          - nibR (x2 (ix2 (⟨kk.val / 128, by have := kk.isLt; omega⟩ : Fin 8) (pcol (n := 128) (N := 1024) rfl cc))) (pnib cc))
        * x3 (ix2 (⟨kk.val / 128, by have := kk.isLt; omega⟩ : Fin 8) cc) := rfl

variable (c : Dev nD) (i : grid0.Coords) (a3 : Memref sig .tc .vmem S2048x1024 .bf16) (h3 : a3.IsWhole) (a4 : Memref sig .tc .vmem S1024x128 .i32) (h4 : a4.IsWhole) (a5 : Memref sig .tc .vmem S8x128 .i32) (h5 : a5.IsWhole) (a6 : Memref sig .tc .vmem S8x1024 .f32) (h6 : a6.IsWhole) (a7 : Memref sig .tc .vmem S2048x1024 .f32) (h7 : a7.IsWhole) (a8 : Memref sig .tc .vmem S1024x1024 .bf16) (h8 : a8.IsWhole)

/-- What the loop leaves in the scratch, read back whole, is the dequantized tile of the point's three slabs. -/
theorem tile_eq (x1 : Vec Ideal S1024x128 .i32) (x2 : Vec Ideal S8x128 .i32) (x3 : Vec Ideal S8x1024 .f32) :
    Trip.tile (F := Ideal) a4 a5 a6 (h4.unread x1) (h5.unread x2) (h6.unread x3) = wtile x1 x2 x3 := by
  funext y
  have hy0 : (y 0).val < 1024 := (y 0).isLt
  unfold Trip.tile Trip.band
  refine (Payload.pay2_apply _ _ _ (⟨(y 0).val % 128, Nat.mod_lt _ (by decide)⟩ : Fin 128) (y 1)).trans ?_
  simp only [View.readAt_eq_ld, h4.read_unread, h5.read_unread, h6.read_unread]
  unfold wtile
  have e1 : ∀ pc : Fin 128, (Rect.unit (s := S1024x128) (k0_off1 (Trip.owner y)) S128x128.size (k0_off1_inb (Trip.owner y))).idx
      (ix2 (⟨(y 0).val % 128, Nat.mod_lt _ (by decide)⟩ : Fin 128) pc) = ix2 (y 0) pc := fun pc => funext fun a => Fin.ext (by
    match a with
    | ⟨0, _⟩ => show (k0_off1 (Trip.owner y)) 0 + 1 * ((y 0).val % 128) = (y 0).val
                rw [k0_off1_eq]; show 128 * ((y 0).val / 128) + 1 * ((y 0).val % 128) = (y 0).val; omega
    | ⟨1, _⟩ => show (k0_off1 (Trip.owner y)) 1 + 1 * pc.val = pc.val
                rw [k0_off1_eq]; show 0 + 1 * pc.val = pc.val; omega)
  have e2 : ∀ pc : Fin 128, (Rect.unit (s := S8x128) (k0_off2 (Trip.owner y)) S1x128.size (k0_off2_inb (Trip.owner y))).idx
      (ix2 (0 : Fin 1) pc) = ix2 (⟨(y 0).val / 128, by omega⟩ : Fin 8) pc := fun pc => funext fun a => Fin.ext (by
    match a with
    | ⟨0, _⟩ => show (k0_off2 (Trip.owner y)) 0 + 1 * 0 = (y 0).val / 128
                rw [k0_off2_eq]; show (y 0).val / 128 + 1 * 0 = (y 0).val / 128; omega
    | ⟨1, _⟩ => show (k0_off2 (Trip.owner y)) 1 + 1 * pc.val = pc.val
                rw [k0_off2_eq]; show 0 + 1 * pc.val = pc.val; omega)
  have e3 : ∀ cc : Fin 1024, (Rect.unit (s := S8x1024) (k0_off3 (Trip.owner y)) S1x1024.size (k0_off3_inb (Trip.owner y))).idx
      (ix2 (0 : Fin 1) cc) = ix2 (⟨(y 0).val / 128, by omega⟩ : Fin 8) cc := fun cc => funext fun a => Fin.ext (by
    match a with
    | ⟨0, _⟩ => show (k0_off3 (Trip.owner y)) 0 + 1 * 0 = (y 0).val / 128
                rw [k0_off3_eq]; show (y 0).val / 128 + 1 * 0 = (y 0).val / 128; omega
    | ⟨1, _⟩ => show (k0_off3 (Trip.owner y)) 1 + 1 * cc.val = cc.val
                rw [k0_off3_eq]; show 0 + 1 * cc.val = cc.val; omega)
  show (nibR (x1 ((Rect.unit (s := S1024x128) (k0_off1 (Trip.owner y)) S128x128.size (k0_off1_inb (Trip.owner y))).idx (ix2 _ _))) _
        - nibR (x2 ((Rect.unit (s := S8x128) (k0_off2 (Trip.owner y)) S1x128.size (k0_off2_inb (Trip.owner y))).idx (ix2 _ _))) _)
      * x3 ((Rect.unit (s := S8x1024) (k0_off3 (Trip.owner y)) S1x1024.size (k0_off3_inb (Trip.owner y))).idx (ix2 _ _)) = _
  rw [e1, e2, e3 (y 1)]
  rfl

/-- A point that continues an output block leaves `acc + x · wtile`. -/
theorem out_B (hc : ¬cond0_0 i) (x0 : Vec Ideal S2048x1024 .bf16) (x1 : Vec Ideal S1024x128 .i32) (x2 : Vec Ideal S8x128 .i32)
    (x3 : Vec Ideal S8x1024 .f32) (xo4 : Vec Ideal S2048x1024 .f32) (r : Fin 2048) (cc : Fin 1024) :
    out0_B_4 (F := Ideal) c i a3 h3 a4 h4 a5 h5 a6 h6 a7 h7 a8 h8 hc x0 x1 x2 x3 xo4 (ix2 r cc)
      = xo4 (ix2 r cc) + ∑ kk : Fin 1024, x0 (ix2 r kk) * wtile x1 x2 x3 (ix2 kk cc) := by
  unfold out0_B_4
  rw [View.read_writes_eq_canon _ _ _ (cover0_B_4 c i a3 h3 a4 h4 a5 h5 a6 h6 a7 h7 a8 h8 hc x0 x1 x2 x3 xo4)]
  unfold kernelRun0_B
  dsimp only
  rw [View.canon_unit_zero hz]
  simp only [View.readAt_eq_ld, h7.read_unread, h3.read_unread, View.ld_unit_zero (S := S2048x1024) hz]
  rw [Trip.readCov_pb Variants.none c none i a3 h3 a4 h4 a5 h5 a6 h6 a7 h7 a8 h8 (h4.unread x1) (h5.unread x2) (h6.unread x3) _ hz, tile_eq, Payload.pay3_apply]

/-- A point that starts an output block leaves `0 + x · wtile`. -/
theorem out_A (hc : cond0_0 i) (x0 : Vec Ideal S2048x1024 .bf16) (x1 : Vec Ideal S1024x128 .i32) (x2 : Vec Ideal S8x128 .i32)
    (x3 : Vec Ideal S8x1024 .f32) (r : Fin 2048) (cc : Fin 1024) :
    out0_A_4 (F := Ideal) c i a3 h3 a4 h4 a5 h5 a6 h6 a7 h7 a8 h8 hc x0 x1 x2 x3 (ix2 r cc)
      = 0 + ∑ kk : Fin 1024, x0 (ix2 r kk) * wtile x1 x2 x3 (ix2 kk cc) := by
  unfold out0_A_4
  rw [View.read_writes_eq_canon _ _ _ (cover0_A_4 c i a3 h3 a4 h4 a5 h5 a6 h6 a7 h7 a8 h8 hc x0 x1 x2 x3)]
  unfold kernelRun0_A
  dsimp only
  rw [View.canon_cons_unit_zero (S := S2048x1024) hz, View.readCov_unit_zero (S := S2048x1024) _ hz]
  simp only [View.readAt_eq_ld, h3.read_unread, View.ld_unit_zero (S := S2048x1024) hz]
  rw [Trip.readCov_pb Variants.none c none i a3 h3 a4 h4 a5 h5 a6 h6 a7 h7 a8 h8 (h4.unread x1) (h5.unread x2) (h6.unread x3) _ hz, tile_eq, Payload.pay3_apply, Payload.pay1_apply]

end Cert.KernelIdeal.Case

end
-- ==== Proof.KernelIdealBlocks.lean ====
/-
  The launch's geometry. The grid has 2 × 11 × 4 points; point `n` (row-major) has row-tile `n / 44`, column-tile
  `n / 4 % 11` and reduction step `n % 4`. At point `n` the input block is rows `2048 (n/44) …`, columns `1024 (n%4) …`
  of the flattened input; the packed-weight block rows `1024 (n%4) …`, packed columns `128 (n/4%11) …`; the zero-point
  and scale blocks rows `8 (n%4) …` and (packed) columns of the same column-tile; the output block rows
  `2048 (n/44) …`, columns `1024 (n/4%11) …`, written back at the last reduction step. The output blocks written back tile the result array.
-/
import proofs.«416305_j86071144611917_3_alg».proof.Proof.Gen.KernelIdeal.Frame.Runs
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps in closed form, decided over the grid. -/
theorem idx_facts : ∀ t : Fin cfg0.N,
    win0_0.index t (0 : Fin 2) = t.val / 44 ∧ win0_0.index t (1 : Fin 2) = t.val % 4
    ∧ win0_1.index t (0 : Fin 2) = t.val % 4 ∧ win0_1.index t (1 : Fin 2) = t.val / 4 % 11
    ∧ win0_2.index t (0 : Fin 2) = t.val % 4 ∧ win0_2.index t (1 : Fin 2) = t.val / 4 % 11
    ∧ win0_3.index t (0 : Fin 2) = t.val % 4 ∧ win0_3.index t (1 : Fin 2) = t.val / 4 % 11
    ∧ win0_4.index t (0 : Fin 2) = t.val / 44 ∧ win0_4.index t (1 : Fin 2) = t.val / 4 % 11 :=
  (by decide +kernel : ∀ t : Fin grid0.N, _)

/-- The launch's operand arrays as the launch finds them, at their literal types. -/
abbrev xarr (c : Dev nD) : Vec F S4096x4096 .bf16 := V m c main_v4
abbrev qwarr (c : Dev nD) : Vec F S4096x1408 .i32 := V m c main_v0
abbrev qzarr (c : Dev nD) : Vec F S32x1408 .i32 := V m c main_v1
abbrev scarr (c : Dev nD) : Vec F S32x11264 .f32 := V m c main_v2

/-- Each input window's block at a point, at its literal type. -/
abbrev xblk (c : Dev nD) (t : Fin cfg0.N) : Vec F S2048x1024 .bf16 := iblk m c 0 t
abbrev qwblk (c : Dev nD) (t : Fin cfg0.N) : Vec F S1024x128 .i32 := iblk m c 1 t
abbrev qzblk (c : Dev nD) (t : Fin cfg0.N) : Vec F S8x128 .i32 := iblk m c 2 t
abbrev scblk (c : Dev nD) (t : Fin cfg0.N) : Vec F S8x1024 .f32 := iblk m c 3 t

/-- The input block at a point reads the flattened input at the block's offset. -/
theorem xblk_apply (c : Dev nD) (t : Fin cfg0.N) (y : S2048x1024.Idx) (i : S4096x4096.Idx)
    (h0 : (i 0).val = t.val / 44 * 2048 + (y 0).val) (h1 : (i 1).val = t.val % 4 * 1024 + (y 1).val) :
    xblk m c t y = xarr m c i := by
  show V m c main_v4 (((cfg0.win 0).blk t).view.emb y) = V m c main_v4 i
  refine congrArg (V m c main_v4) ?_
  obtain ⟨e0, e1, -⟩ := idx_facts t
  funext a; apply Fin.ext
  match a with
  | ⟨0, _⟩ => show win0_0.index t (0 : Fin 2) * 2048 + 1 * (y 0).val = (i 0).val; omega
  | ⟨1, _⟩ => show win0_0.index t (1 : Fin 2) * 1024 + 1 * (y 1).val = (i 1).val; omega

/-- The packed-weight block at a point reads the padded packed weights at the block's offset. -/
theorem qwblk_apply (c : Dev nD) (t : Fin cfg0.N) (y : S1024x128.Idx) (i : S4096x1408.Idx)
    (h0 : (i 0).val = t.val % 4 * 1024 + (y 0).val) (h1 : (i 1).val = t.val / 4 % 11 * 128 + (y 1).val) :
    qwblk m c t y = qwarr m c i := by
  show V m c main_v0 (((cfg0.win 1).blk t).view.emb y) = V m c main_v0 i
  refine congrArg (V m c main_v0) ?_
  obtain ⟨-, -, e0, e1, -⟩ := idx_facts t
  funext a; apply Fin.ext
  match a with
  | ⟨0, _⟩ => show win0_1.index t (0 : Fin 2) * 1024 + 1 * (y 0).val = (i 0).val; omega
  | ⟨1, _⟩ => show win0_1.index t (1 : Fin 2) * 128 + 1 * (y 1).val = (i 1).val; omega

/-- The zero-point block at a point reads the padded packed zero-points at the block's offset. -/
theorem qzblk_apply (c : Dev nD) (t : Fin cfg0.N) (y : S8x128.Idx) (i : S32x1408.Idx)
    (h0 : (i 0).val = t.val % 4 * 8 + (y 0).val) (h1 : (i 1).val = t.val / 4 % 11 * 128 + (y 1).val) :
    qzblk m c t y = qzarr m c i := by
  show V m c main_v1 (((cfg0.win 2).blk t).view.emb y) = V m c main_v1 i
  refine congrArg (V m c main_v1) ?_
  obtain ⟨-, -, -, -, e0, e1, -⟩ := idx_facts t
  funext a; apply Fin.ext
  match a with
  | ⟨0, _⟩ => show win0_2.index t (0 : Fin 2) * 8 + 1 * (y 0).val = (i 0).val; omega
  | ⟨1, _⟩ => show win0_2.index t (1 : Fin 2) * 128 + 1 * (y 1).val = (i 1).val; omega

/-- The scale block at a point reads the padded scales at the block's offset. -/
theorem scblk_apply (c : Dev nD) (t : Fin cfg0.N) (y : S8x1024.Idx) (i : S32x11264.Idx)
    (h0 : (i 0).val = t.val % 4 * 8 + (y 0).val) (h1 : (i 1).val = t.val / 4 % 11 * 1024 + (y 1).val) :
    scblk m c t y = scarr m c i := by
  show V m c main_v2 (((cfg0.win 3).blk t).view.emb y) = V m c main_v2 i
  refine congrArg (V m c main_v2) ?_
  obtain ⟨-, -, -, -, -, -, e0, e1, -⟩ := idx_facts t
  funext a; apply Fin.ext
  match a with
  | ⟨0, _⟩ => show win0_3.index t (0 : Fin 2) * 8 + 1 * (y 0).val = (i 0).val; omega
  | ⟨1, _⟩ => show win0_3.index t (1 : Fin 2) * 1024 + 1 * (y 1).val = (i 1).val; omega

/-- An element of the output block at a point sits in the result array at the block's offset. -/
theorem oblk_emb (t : Fin cfg0.N) (y : S2048x1024.Idx) :
    ((((cfg0.win 4).blk t).view.emb y : S4096x11264.Idx) 0).val = t.val / 44 * 2048 + (y 0).val
    ∧ ((((cfg0.win 4).blk t).view.emb y : S4096x11264.Idx) 1).val = t.val / 4 % 11 * 1024 + (y 1).val := by
  obtain ⟨-, -, -, -, -, -, -, -, e0, e1⟩ := idx_facts t
  constructor
  · show win0_4.index t (0 : Fin 2) * 2048 + 1 * (y 0).val = _
    omega
  · show win0_4.index t (1 : Fin 2) * 1024 + 1 * (y 1).val = _
    omega

/-- An index of the result array is in point `t`'s output block iff each coordinate is in the block's range on its axis. -/
theorem mem_blk4 (t : Fin cfg0.N) (i : S4096x11264.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v5).slice (win0_4.rect t)).set ↔ _
  rw [View.set_slice_whole, Rect.mem_set_unit]
  exact Iff.rfl

/-- THE COVER: every element of the result array lies in the block of a point that writes its block back. -/
theorem cover4 (i : S4096x11264.Idx) :
    ∃ t : Fin cfg0.N, (cfg0.win 4).flush t = true ∧ i ∈ ((cfg0.win 4).blk t).view.set := by
  have hN : cfg0.N = 88 := N_0
  have hi0 : (i 0).val < 4096 := (i 0).isLt
  have hi1 : (i 1).val < 11264 := (i 1).isLt
  have ht : (i 0).val / 2048 * 44 + (i 1).val / 1024 * 4 + 3 < cfg0.N := by omega
  refine ⟨⟨(i 0).val / 2048 * 44 + (i 1).val / 1024 * 4 + 3, ht⟩, (flush0_4 _).mpr (by show ((i 0).val / 2048 * 44 + (i 1).val / 1024 * 4 + 3) % 4 = 3; omega), ?_⟩
  rw [mem_blk4]
  obtain ⟨-, -, -, -, -, -, -, -, e0, e1⟩ := idx_facts ⟨(i 0).val / 2048 * 44 + (i 1).val / 1024 * 4 + 3, ht⟩
  have e0' : win0_4.index ⟨(i 0).val / 2048 * 44 + (i 1).val / 1024 * 4 + 3, ht⟩ (0 : Fin 2) = ((i 0).val / 2048 * 44 + (i 1).val / 1024 * 4 + 3) / 44 := e0
  have e1' : win0_4.index ⟨(i 0).val / 2048 * 44 + (i 1).val / 1024 * 4 + 3, ht⟩ (1 : Fin 2) = ((i 0).val / 2048 * 44 + (i 1).val / 1024 * 4 + 3) / 4 % 11 := e1
  intro a
  match a with
  | ⟨0, _⟩ =>
    show win0_4.index ⟨(i 0).val / 2048 * 44 + (i 1).val / 1024 * 4 + 3, ht⟩ (0 : Fin 2) * 2048 ≤ (i 0).val ∧ (i 0).val < win0_4.index ⟨(i 0).val / 2048 * 44 + (i 1).val / 1024 * 4 + 3, ht⟩ (0 : Fin 2) * 2048 + 2048
    omega
  | ⟨1, _⟩ =>
    show win0_4.index ⟨(i 0).val / 2048 * 44 + (i 1).val / 1024 * 4 + 3, ht⟩ (1 : Fin 2) * 1024 ≤ (i 1).val ∧ (i 1).val < win0_4.index ⟨(i 0).val / 2048 * 44 + (i 1).val / 1024 * 4 + 3, ht⟩ (1 : Fin 2) * 1024 + 1024
    omega

end Cert.KernelIdeal.Blocks

end
-- ==== Proof.KernelIdealAccum.lean ====
/-
  The accumulation over the grid. For output row `R` and (padded) column `O` write
      acc R O n = the first n terms of ∑ k < 4096, x[R, k] · w[k, O],
  `x` the flattened input and `w` the dequantized padded weight. The output block of row-tile `i` and column-tile `j`
  is visited at four consecutive points, reduction steps 0 … 3; step `s` adds the 1024 terms `1024 s … 1024 s + 1023`
  (its input block times the tile dequantized from its three slabs), step 0 starting from the zero it stores. So after
  the point `n` the block holds `acc` at `1024 (n % 4 + 1)` terms — by induction on the point —, and the block written back
  after step 3 holds the whole sum: the result array ends at `acc R O 4096` everywhere.
-/
import proofs.«416305_j86071144611917_3_alg».proof.Proof.KernelIdealFrameP
import proofs.«416305_j86071144611917_3_alg».proof.Proof.KernelIdealCase
import proofs.«416305_j86071144611917_3_alg».proof.Proof.KernelIdealBlocks
import proofs.«416305_j86071144611917_3_alg».proof.Proof.Spec
import Idealize.ShloMosaic.Lib.Pipeline.Value
import Idealize.ShloMosaic.Lib.ValueIdx

set_option maxRecDepth 16384

noncomputable section

namespace Cert.KernelIdeal.Accum

open Cert.KernelIdeal Cert.KernelIdeal.Gen Cert.KernelIdeal.GenP Cert.KernelIdeal.Blocks
open Idealize.ShloMosaic Idealize.ShloMosaic.TcCoe Idealize.ShloMosaic.ValueIdx Idealize.SL.Sem
open Idealize.ShloMosaic.Pipeline (Dat)
open Cert.Dequant

variable (m : (ℓ : Loc nD τ sig) → Buf (Elt Ideal) ℓ) (ρ : Dev nD → PrngReg)

/-- The dequantized weight of the PADDED arrays the launch is given. -/
def wP (c : Dev nD) (k : Fin 4096) (o : Fin 11264) : EReal :=
  weight (n := 1408) (N := 11264) rfl (qwarr m c) (qzarr m c) (scarr m c) k o

/-- The first `cnt` terms of row `R` of the input against column `O` of the padded weight (zero off the array). -/
def accN (c : Dev nD) (R O cnt : ℕ) : EReal :=
  if h : R < 4096 ∧ O < 11264 then
    partialDot (K := 4096) (fun k => xarr m c (ix2 (⟨R, h.1⟩ : Fin 4096) k)) (fun k => wP m c k (⟨O, h.2⟩ : Fin 11264)) cnt
  else 0

theorem accN_zero (c : Dev nD) (R O : ℕ) : accN m c R O 0 = 0 := by
  unfold accN; split
  · exact partialDot_zero _ _
  · rfl

/-- One reduction step more: 1024 more terms. -/
theorem accN_step (c : Dev nD) (n : ℕ) (hN : n < 88) (r : Fin 2048) (cc : Fin 1024) :
    accN m c (n / 44 * 2048 + r.val) (n / 4 % 11 * 1024 + cc.val) ((n % 4 + 1) * 1024)
      = accN m c (n / 44 * 2048 + r.val) (n / 4 % 11 * 1024 + cc.val) (n % 4 * 1024)
        + ∑ kk : Fin 1024,
            xarr m c (ix2 (⟨n / 44 * 2048 + r.val, by have := r.isLt; omega⟩ : Fin 4096) (⟨n % 4 * 1024 + kk.val, by have := kk.isLt; omega⟩ : Fin 4096))
              * wP m c (⟨n % 4 * 1024 + kk.val, by have := kk.isLt; omega⟩ : Fin 4096) (⟨n / 4 % 11 * 1024 + cc.val, by have := cc.isLt; omega⟩ : Fin 11264) := by
  have hr := r.isLt
  have hcc := cc.isLt
  unfold accN
  rw [dif_pos ⟨by omega, by omega⟩, dif_pos ⟨by omega, by omega⟩, show (n % 4 + 1) * 1024 = n % 4 * 1024 + 1024 from by omega,
    partialDot_add_tile _ _ (n % 4 * 1024) 1024 (by omega)]

/-- One term of a point's product: the input block times the tile dequantized from the point's three slabs is the
    flattened input times the padded weight, at the point's offsets. -/
theorem term_eq (c : Dev nD) (n : ℕ) (hn : n < cfg0.N) (r : Fin 2048) (cc kk : Fin 1024)
    (hR : n / 44 * 2048 + r.val < 4096) (hK : n % 4 * 1024 + kk.val < 4096) (hO : n / 4 % 11 * 1024 + cc.val < 11264) :
    xblk m c ⟨n, hn⟩ (ix2 r kk) * Case.wtile (qwblk m c ⟨n, hn⟩) (qzblk m c ⟨n, hn⟩) (scblk m c ⟨n, hn⟩) (ix2 kk cc)
      = xarr m c (ix2 (⟨n / 44 * 2048 + r.val, hR⟩ : Fin 4096) (⟨n % 4 * 1024 + kk.val, hK⟩ : Fin 4096))
          * wP m c (⟨n % 4 * 1024 + kk.val, hK⟩ : Fin 4096) (⟨n / 4 % 11 * 1024 + cc.val, hO⟩ : Fin 11264) := by
  have hkk : kk.val < 1024 := kk.isLt
  have hcc : cc.val < 1024 := cc.isLt
  rw [xblk_apply m c ⟨n, hn⟩ (ix2 r kk) (ix2 (⟨n / 44 * 2048 + r.val, hR⟩ : Fin 4096) (⟨n % 4 * 1024 + kk.val, hK⟩ : Fin 4096)) rfl rfl,
    Case.wtile_apply]
  unfold wP weight
  rw [qwblk_apply m c ⟨n, hn⟩ (ix2 kk (pcol (n := 128) (N := 1024) rfl cc))
      (ix2 (⟨n % 4 * 1024 + kk.val, hK⟩ : Fin 4096) (pcol (n := 1408) (N := 11264) rfl (⟨n / 4 % 11 * 1024 + cc.val, hO⟩ : Fin 11264))) rfl
      (by show (n / 4 % 11 * 1024 + cc.val) / 8 = n / 4 % 11 * 128 + cc.val / 8; omega),
    qzblk_apply m c ⟨n, hn⟩ (ix2 (⟨kk.val / 128, by omega⟩ : Fin 8) (pcol (n := 128) (N := 1024) rfl cc))
      (ix2 (grp (⟨n % 4 * 1024 + kk.val, hK⟩ : Fin 4096)) (pcol (n := 1408) (N := 11264) rfl (⟨n / 4 % 11 * 1024 + cc.val, hO⟩ : Fin 11264)))
      (by show (n % 4 * 1024 + kk.val) / 128 = n % 4 * 8 + kk.val / 128; omega)
      (by show (n / 4 % 11 * 1024 + cc.val) / 8 = n / 4 % 11 * 128 + cc.val / 8; omega),
    scblk_apply m c ⟨n, hn⟩ (ix2 (⟨kk.val / 128, by omega⟩ : Fin 8) cc)
      (ix2 (grp (⟨n % 4 * 1024 + kk.val, hK⟩ : Fin 4096)) (⟨n / 4 % 11 * 1024 + cc.val, hO⟩ : Fin 11264))
      (by show (n % 4 * 1024 + kk.val) / 128 = n % 4 * 8 + kk.val / 128; omega) rfl,
    show pnib (⟨n / 4 % 11 * 1024 + cc.val, hO⟩ : Fin 11264) = pnib cc from
      Fin.ext (by show (n / 4 % 11 * 1024 + cc.val) % 8 = cc.val % 8; omega)]

/-- THE INVARIANT: after point `n` the output block holds the first `1024 (n % 4 + 1)` terms of its dot products. -/
theorem inv (c : Dev nD) : ∀ (n : ℕ) (hn : n < cfg0.N) (r : Fin 2048) (cc : Fin 1024),
    outsAt0 m c n hn (ix2 r cc)
      = accN m c (n / 44 * 2048 + r.val) (n / 4 % 11 * 1024 + cc.val) ((n % 4 + 1) * 1024) := by
  intro n
  induction n using Nat.strong_induction_on with
  | _ n ih =>
    intro hn r cc
    have hN : n < 88 := lt_of_lt_of_eq hn (show cfg0.N = 88 from N_0)
    rw [accN_step m c n hN r cc]
    by_cases h0 : n % 4 = 0
    · have e := outsAt0_A m c ⟨n, hn⟩ h0
      rw [show outsAt0 m c n hn = _ from e, Case.out_A,
        show accN m c (n / 44 * 2048 + r.val) (n / 4 % 11 * 1024 + cc.val) (n % 4 * 1024) = 0 from by
          rw [show n % 4 * 1024 = 0 from by omega]; exact accN_zero m c _ _]
      exact congrArg (0 + ·) (Finset.sum_congr rfl fun kk _ => term_eq m c n hn r cc kk _ _ _)
    · have e := outsAt0_B m c ⟨n, hn⟩ h0
      have ihn := ih (n - 1) (by omega) (Nat.lt_of_le_of_lt (Nat.sub_le _ _) hn) r cc
      rw [show (n - 1) / 44 = n / 44 from by omega, show (n - 1) / 4 % 11 = n / 4 % 11 from by omega,
        show ((n - 1) % 4 + 1) * 1024 = n % 4 * 1024 from by omega] at ihn
      rw [show outsAt0 m c n hn = _ from e, Case.out_B]
      refine congrArg₂ (· + ·) ?_ (Finset.sum_congr rfl fun kk _ => term_eq m c n hn r cc kk _ _ _)
      exact ihn

/-- What the result array ends holding: the whole dot product at every element. -/
def final (c : Dev nD) : S4096x11264.Idx → EReal := fun y => accN m c (y 0).val (y 1).val 4096

/-- A point that writes its block back (reduction step 3) writes the block of `final`. -/
theorem flushed_eq (c : Dev nD) (t : Fin cfg0.N) (hf : (cfg0.win 4).flush t = true) :
    (dats m 0 c).flushed 4 t = ((cfg0.win 4).blk t).view.read (Elt Ideal) (final m c) := by
  have h3 : t.val % 4 = 3 := (flush0_4 t).mp hf
  show (cfg0.win 4).cut (grid0.coords t) ((dats m 0 c).after 4 t) = _
  rw [after0_4]
  funext j
  obtain ⟨r, cc, rfl⟩ : ∃ (r : Fin 2048) (cc : Fin 1024), j = ix2 r cc := ⟨j 0, j 1, eq_ix2 j⟩
  rw [View.read_apply]
  show outsAt0 m c t.val t.isLt (ix2 r cc) = final m c (((cfg0.win 4).blk t).view.emb (ix2 r cc))
  rw [inv m c t.val t.isLt r cc]
  obtain ⟨e0, e1⟩ := oblk_emb t (ix2 r cc)
  unfold final
  show _ = accN m c ((((cfg0.win 4).blk t).view.emb (ix2 r cc) : S4096x11264.Idx) 0).val
    ((((cfg0.win 4).blk t).view.emb (ix2 r cc) : S4096x11264.Idx) 1).val 4096
  rw [e0, e1, show (t.val % 4 + 1) * 1024 = 4096 from by omega]

/-- So the result array ends holding `final`: the blocks written back tile it. -/
theorem arr_final (c : Dev nD) : (dats m 0 c).arrAt 4 cfg0.N = final m c :=
  (dats m 0 c).arrAt_eq_of_cover 4 (final m c) (flushed_eq m c) cover4

end Cert.KernelIdeal.Accum

end
-- ==== Proof.KernelHost.lean ====
/-
  The host operations around the kernel's launch, read at an index over the extended reals.
  Before the launch: the packed weights, packed zero-points and scales are padded with extra columns on the right (an
  in-range column reads the argument itself), and the input [2, 2048, 4096] is flattened to [4096, 4096] (row
  `2048 b + s` is `(b, s)`) and rounded to bf16, which over the extended reals changes nothing.
  After the launch: the result [4096, 11264] loses its padding columns and is unflattened to [2, 2048, 11008].
-/
import proofs.«416305_j86071144611917_3_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The launch's first operand as a function: the input flattened to [4096, 4096], then rounded. -/
theorem V_v4_fun (c : Dev nD) :
    (V m c main_v4 : S4096x4096.Idx → EReal)
      = truncf (F := Ideal) .bf16 (shapeCast S4096x4096 (m ((c : Thread nD τ).loc main_arg0) : S2x2048x4096.Idx → EReal) shapeCasts_S2x2048x4096_S4096x4096) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The launch's first operand (the flattened, rounded input) at row `R`, column `kk`: the input at `(R / 2048, R % 2048, kk)`. -/
theorem V_v4_apply (c : Dev nD) (R : Fin 4096) (kk : Fin 4096) :
    (V m c main_v4 : S4096x4096.Idx → EReal) (ix2 R kk)
      = (m ((c : Thread nD τ).loc main_arg0) : S2x2048x4096.Idx → EReal)
          (ix3 (⟨R.val / 2048, by have := R.isLt; omega⟩ : Fin 2) (⟨R.val % 2048, Nat.mod_lt _ (by decide)⟩ : Fin 2048) kk) := by
  rw [V_v4_fun, truncf_apply]
  refine shapeCast_apply (s := S2x2048x4096) (t := S4096x4096) _ _ _ _ ?_
  rw [Shape.rowMajor_val_three, Shape.rowMajor_val_two]
  have hR := R.isLt
  have hk := kk.isLt
  show (R.val / 2048 * 2048 + R.val % 2048) * 4096 + kk.val = R.val * 4096 + kk.val
  omega

/-- The padded packed weights as a function: the packed weights with 32 columns of a constant appended. -/
theorem V_v0_fun (c : Dev nD) :
    (V m c main_v0 : S4096x1408.Idx → BitVec 32)
      = pad S4096x1408 ![0, 0] ![0, 32] ![0, 0] (m ((c : Thread nD τ).loc main_arg1) : S4096x1376.Idx → BitVec 32)
          (constantI S_ 32 0#32) pads_S4096x1376_S4096x1408_000_0320 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The padded packed weights at an in-range packed column are the packed weights. -/
theorem V_v0_apply (c : Dev nD) (i : Fin 4096) (pc : Fin 1408) (h : pc.val < 1376) :
    (V m c main_v0 : S4096x1408.Idx → BitVec 32) (ix2 i pc)
      = (m ((c : Thread nD τ).loc main_arg1) : S4096x1376.Idx → BitVec 32) (ix2 i (⟨pc.val, h⟩ : Fin 1376)) := by
  rw [V_v0_fun]
  refine pad_apply_of_inside _ _ _ _ _ _ _ _ _ fun a => ?_
  match a with
  | ⟨0, _⟩ => show i.val = 0 + i.val * (0 + 1); omega
  | ⟨1, _⟩ => show pc.val = 0 + pc.val * (0 + 1); omega

/-- The padded packed zero-points as a function: the packed zero-points with 32 columns of a constant appended. -/
theorem V_v1_fun (c : Dev nD) :
    (V m c main_v1 : S32x1408.Idx → BitVec 32)
      = pad S32x1408 ![0, 0] ![0, 32] ![0, 0] (m ((c : Thread nD τ).loc main_arg2) : S32x1376.Idx → BitVec 32)
          (constantI S_ 32 0#32) pads_S32x1376_S32x1408_000_0320 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The padded packed zero-points at an in-range packed column are the packed zero-points. -/
theorem V_v1_apply (c : Dev nD) (g : Fin 32) (pc : Fin 1408) (h : pc.val < 1376) :
    (V m c main_v1 : S32x1408.Idx → BitVec 32) (ix2 g pc)
      = (m ((c : Thread nD τ).loc main_arg2) : S32x1376.Idx → BitVec 32) (ix2 g (⟨pc.val, h⟩ : Fin 1376)) := by
  rw [V_v1_fun]
  refine pad_apply_of_inside _ _ _ _ _ _ _ _ _ fun a => ?_
  match a with
  | ⟨0, _⟩ => show g.val = 0 + g.val * (0 + 1); omega
  | ⟨1, _⟩ => show pc.val = 0 + pc.val * (0 + 1); omega

/-- The padded scales as a function: the scales with 256 columns of a converted constant appended. -/
theorem V_v2_fun (c : Dev nD) :
    (V m c main_v2 : S32x11264.Idx → EReal)
      = pad S32x11264 ![0, 0] ![0, 256] ![0, 0] (m ((c : Thread nD τ).loc main_arg3) : S32x11008.Idx → EReal)
          (sitofp (F := Ideal) .f32 (constantI S_ 32 0#32)) pads_S32x11008_S32x11264_000_02560 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The padded scales at an in-range column are the scales. -/
theorem V_v2_apply (c : Dev nD) (g : Fin 32) (o : Fin 11264) (h : o.val < 11008) :
    (V m c main_v2 : S32x11264.Idx → EReal) (ix2 g o)
      = (m ((c : Thread nD τ).loc main_arg3) : S32x11008.Idx → EReal) (ix2 g (⟨o.val, h⟩ : Fin 11008)) := by
  rw [V_v2_fun]
  refine pad_apply_of_inside _ _ _ _ _ _ _ _ _ fun a => ?_
  match a with
  | ⟨0, _⟩ => show g.val = 0 + g.val * (0 + 1); omega
  | ⟨1, _⟩ => show o.val = 0 + o.val * (0 + 1); omega

/-- The program's result as a function: the launch's result array without its padding columns, unflattened. -/
theorem tail_v7_fun (dats : (p : Fin 1) → (c : Dev nD) → Dat τ (Elt Ideal) Unit ℕ (UR sig nD τ) ℕ (cfgs p) c) (c : Dev nD) :
    (Pipeline.afterTail₀ cfgs dats 0 (V0 m) [hostOps1] c main_v7 : S2x2048x11008.Idx → EReal)
      = shapeCast S2x2048x11008 (extractStridedSlice S4096x11008 ![0, 0] ((dats 0 c).arrAt 4 cfg0.N : S4096x11264.Idx → EReal)
          slices_S4096x11264_S4096x11008_0_0) shapeCasts_S4096x11008_S2x2048x11008 := by
  unfold Pipeline.afterTail₀
  simp only [Gen.hostOps1, List.flatten_cons, List.flatten_nil, List.append_nil]
  after_results
  have e : Pipeline.withArrays (cfgs 0).spec c (V0 m c) (fun w => (dats 0 c).arrAt w (cfgs 0).N) (Proc.devRef .tc main_v5)
      = (dats 0 c).arrAt 4 (cfgs 0).N := Pipeline.withArrays_arr spec0 launch0.win.arr_inj c _ _ 4
  rw [e]
  rfl

/-- The program's result at `(b, s, o)` is the launch's result array at row `2048 b + s`, column `o`. -/
theorem tail_v7 (dats : (p : Fin 1) → (c : Dev nD) → Dat τ (Elt Ideal) Unit ℕ (UR sig nD τ) ℕ (cfgs p) c) (c : Dev nD)
    (b : Fin 2) (s : Fin 2048) (o : Fin 11008) :
    (Pipeline.afterTail₀ cfgs dats 0 (V0 m) [hostOps1] c main_v7 : S2x2048x11008.Idx → EReal) (ix3 b s o)
      = ((dats 0 c).arrAt 4 cfg0.N : S4096x11264.Idx → EReal)
          (ix2 (⟨b.val * 2048 + s.val, by have := b.isLt; have := s.isLt; omega⟩ : Fin 4096) (⟨o.val, by have := o.isLt; omega⟩ : Fin 11264)) := by
  have hb := b.isLt
  have hs := s.isLt
  have ho := o.isLt
  rw [tail_v7_fun]
  refine (shapeCast_apply (s := S4096x11008) (t := S2x2048x11008) _ _ _
    (ix2 (⟨b.val * 2048 + s.val, by omega⟩ : Fin 4096) o) ?_).trans ?_
  · rw [Shape.rowMajor_val_three, Shape.rowMajor_val_two]
    show (b.val * 2048 + s.val) * 11008 + o.val = (b.val * 2048 + s.val) * 11008 + o.val
    rfl
  · refine extractStridedSlice_apply (s := S4096x11264) (t := S4096x11008) _ _ _ _ _ fun a => ?_
    match a with
    | ⟨0, _⟩ => show b.val * 2048 + s.val = 0 + (b.val * 2048 + s.val); omega
    | ⟨1, _⟩ => show o.val = 0 + o.val; omega

end Cert.KernelIdeal.Host

end
-- ==== Proof.KernelIdealResult.lean ====
/-
  The idealized kernel's result is the specification. The result array ends at the whole dot product of the flattened
  input with the dequantized PADDED weight; the program's result keeps the columns below 11008, where the padded packed
  weights, zero-points and scales are the arguments themselves, and unflattens the rows: element `(b, s, o)` is
  `∑ k, x[b, s, k] · weight k o`.
-/
import proofs.«416305_j86071144611917_3_alg».proof.Proof.KernelIdealAccum
import proofs.«416305_j86071144611917_3_alg».proof.Proof.KernelHost
import proofs.«416305_j86071144611917_3_alg».proof.Proof.Spec
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.GenP Cert.KernelIdeal.Blocks
open Idealize.ShloMosaic Idealize.ShloMosaic.TcCoe Idealize.ShloMosaic.ValueIdx Idealize.SL.Sem
open Cert.Dequant

variable (m : (ℓ : Loc nD τ sig) → Buf (Elt Ideal) ℓ) (ρ : Dev nD → PrngReg)

/-- At a column below 11008 the padded weight is the weight of the arguments: the packed column `o / 8` is below 1376. -/
theorem wP_eq (c : Dev nD) (k : Fin 4096) (o : Fin 11008) :
    Accum.wP m c k (⟨o.val, by have := o.isLt; omega⟩ : Fin 11264)
      = weight (n := 1376) (N := 11008) rfl (m ((c.tc : Thread nD τ).loc main_arg1)) (m ((c.tc : Thread nD τ).loc main_arg2)) (m ((c.tc : Thread nD τ).loc main_arg3)) k o := by
  have ho := o.isLt
  unfold Accum.wP weight
  rw [show qwarr m c (ix2 k (pcol (n := 1408) (N := 11264) rfl (⟨o.val, by omega⟩ : Fin 11264))) = _ from
      Host.V_v0_apply m c k (pcol (n := 1408) (N := 11264) rfl (⟨o.val, by omega⟩ : Fin 11264)) (by show o.val / 8 < 1376; omega),
    show qzarr m c (ix2 (grp k) (pcol (n := 1408) (N := 11264) rfl (⟨o.val, by omega⟩ : Fin 11264))) = _ from
      Host.V_v1_apply m c (grp k) (pcol (n := 1408) (N := 11264) rfl (⟨o.val, by omega⟩ : Fin 11264)) (by show o.val / 8 < 1376; omega),
    show scarr m c (ix2 (grp k) (⟨o.val, by omega⟩ : Fin 11264)) = _ from
      Host.V_v2_apply m c (grp k) (⟨o.val, by omega⟩ : Fin 11264) ho]
  rfl

/-- The whole dot product at row `2048 b + s`, column `o` is the specification's result at `(b, s, o)`. -/
theorem result_eq (c : Dev nD) (b : Fin 2) (s : Fin 2048) (o : Fin 11008) :
    Accum.accN m c (b.val * 2048 + s.val) o.val 4096
      = result (m ((c.tc : Thread nD τ).loc main_arg0)) (m ((c.tc : Thread nD τ).loc main_arg1)) (m ((c.tc : Thread nD τ).loc main_arg2)) (m ((c.tc : Thread nD τ).loc main_arg3)) (ix3 b s o) := by
  have hb := b.isLt
  have hs := s.isLt
  have ho := o.isLt
  unfold Accum.accN
  rw [dif_pos ⟨by omega, by omega⟩, partialDot_full]
  unfold result
  refine Finset.sum_congr rfl fun k _ => ?_
  rw [wP_eq m c k o,
    show xarr m c (ix2 (⟨b.val * 2048 + s.val, by omega⟩ : Fin 4096) k) = _ from
      Host.V_v4_apply m c (⟨b.val * 2048 + s.val, by omega⟩ : Fin 4096) k,
    show (⟨(b.val * 2048 + s.val) / 2048, by omega⟩ : Fin 2) = b from Fin.ext (by show (b.val * 2048 + s.val) / 2048 = b.val; omega),
    show (⟨(b.val * 2048 + s.val) % 2048, Nat.mod_lt _ (by decide)⟩ : Fin 2048) = s from
      Fin.ext (by show (b.val * 2048 + s.val) % 2048 = s.val; omega)]

/-- The program's result buffer after the launch and the two host operations that follow it. -/
theorem v7_eq (c : Dev nD) :
    (Pipeline.afterTail₀ cfgs (dats m) 0 (V0 m) [hostOps1] c main_v7 : S2x2048x11008.Idx → EReal)
      = result (m ((c.tc : Thread nD τ).loc main_arg0)) (m ((c.tc : Thread nD τ).loc main_arg1)) (m ((c.tc : Thread nD τ).loc main_arg2)) (m ((c.tc : Thread nD τ).loc main_arg3)) := by
  funext j
  obtain ⟨b, s, o, rfl⟩ : ∃ (b : Fin 2) (s : Fin 2048) (o : Fin 11008), j = ix3 b s o := ⟨j 0, j 1, j 2, eq_ix3 j⟩
  rw [Host.tail_v7 m (dats m) c b s o, Accum.arr_final m c]
  exact result_eq m c b s o

/-- THE RUN, READ: every weakly fair execution of the idealized kernel's program ends with the result buffer at the
    specification's result of the arguments, and the arguments unchanged. -/
theorem run : θ_run defs (onTc (τ := τ) (main (F := Ideal))) ⟨m, fun _ => 0, ρ⟩ fun r => ∀ c : Dev nD,
      r.2.mem ((c.tc : Thread nD τ).loc main_v7) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v7 (Pipeline.mem_restRefs_of main_v7 (by decide) (by decide))).trans (v7_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference's result, read index by index, is the specification: nibble `o % 8` of packed column `o / 8`
  minus the group's zero-point nibble, times the group's scale, contracted with the input over the 4096 rows.
-/
import proofs.«416305_j86071144611917_3_alg».proof.Proof.Gen.ReferenceIdeal.Run
import proofs.«416305_j86071144611917_3_alg».proof.Proof.Gen.ReferenceIdeal.Read
import proofs.«416305_j86071144611917_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The packed-word side: the nibble stage at a coordinate triple -/

/-- Reading the broadcast packed weight at `(i, c, p)` reads the packed word at `(i, c)`. -/
theorem idx_qw (i : Fin 4096) (c : Fin 1376) (p : Fin 8) :
    idx_main_v4 (idx_main_v5 (ix3 i c p)) = ix2 i c :=
  funext fun a => match a with
    | ⟨0, _⟩ => rfl
    | ⟨1, _⟩ => rfl

/-- Reading the broadcast shift table at `(i, c, p)` reads its entry `p`. -/
theorem idx_sh (i : Fin 4096) (c : Fin 1376) (p : Fin 8) :
    idx_main_v3 (idx_main_v6 (ix3 i c p)) = ix1 p :=
  funext fun a => match a with
    | ⟨0, _⟩ => rfl

/-- The shift table's entry `p` is the word `4p`. -/
theorem shift_eq (p : Fin 8) : val_main_v2 (F := Ideal) (ix1 p) = Cert.Dequant.shamt p := by
  rw [val_main_v2_apply, val_main_v0_apply, val_main_v1_apply, val_main_c_apply]
  rfl

/-- The masked, shifted weight word at `(i, c, p)` is nibble `p` of the packed word at `(i, c)`. -/
theorem nib_qw (x1 : (⟨S4096x1376, .i32⟩ : BufTy).Contents (Elt Ideal)) (i : Fin 4096) (c : Fin 1376) (p : Fin 8) :
    val_main_v9 (F := Ideal) x1 (ix3 i c p) = Cert.Dequant.nib (x1 (ix2 i c)) p := by
  rw [val_main_v9_apply, val_main_v7_apply, val_main_v5_apply, val_main_v4_apply, val_main_v6_apply, val_main_v3_apply,
    val_main_v8_apply, val_main_c_0_apply, idx_qw, idx_sh, shift_eq]
  exact Cert.Dequant.nib_host _ _

/-- Flattening `[4096, 1376, 8]` to `[4096, 11008]`: column `o` is nibble `o % 8` of packed column `o / 8`. -/
theorem idx_flat_qw (i : Fin 4096) (o : Fin 11008) :
    idx_main_v10 (ix2 i o) = ix3 i (Cert.Dequant.pcol (n := 1376) (N := 11008) rfl o) (Cert.Dequant.pnib o) := by
  have hi := i.isLt
  have ho := o.isLt
  funext a
  match a with
  | ⟨0, _⟩ => exact Fin.ext (by show (i.val * 11008 + o.val) / 11008 = i.val; omega)
  | ⟨1, _⟩ => exact Fin.ext (by show (i.val * 11008 + o.val) / 8 % 1376 = o.val / 8; omega)
  | ⟨2, _⟩ => exact Fin.ext (by show (i.val * 11008 + o.val) % 8 = o.val % 8; omega)

/-- The unpacked weight at row `i`, column `o`, as an extended real. -/
theorem unpacked_qw (x1 : (⟨S4096x1376, .i32⟩ : BufTy).Contents (Elt Ideal)) (i : Fin 4096) (o : Fin 11008) :
    val_main_v11 (F := Ideal) x1 (ix2 i o)
      = Cert.Dequant.nibR (x1 (ix2 i (Cert.Dequant.pcol (n := 1376) (N := 11008) rfl o))) (Cert.Dequant.pnib o) := by
  rw [val_main_v11_apply, val_main_v10_apply, idx_flat_qw, nib_qw]
  rfl

/-! ## The zero-point side: the same unpacking over 32 groups -/

theorem idx_qz (g : Fin 32) (c : Fin 1376) (p : Fin 8) :
    idx_main_v16 (idx_main_v17 (ix3 g c p)) = ix2 g c :=
  funext fun a => match a with
    | ⟨0, _⟩ => rfl
    | ⟨1, _⟩ => rfl

theorem idx_shz (g : Fin 32) (c : Fin 1376) (p : Fin 8) :
    idx_main_v15 (idx_main_v18 (ix3 g c p)) = ix1 p :=
  funext fun a => match a with
    | ⟨0, _⟩ => rfl

theorem shiftz_eq (p : Fin 8) : val_main_v14 (F := Ideal) (ix1 p) = Cert.Dequant.shamt p := by
  rw [val_main_v14_apply, val_main_v12_apply, val_main_v13_apply, val_main_c_1_apply]
  rfl

/-- The masked, shifted zero-point word at `(g, c, p)` is nibble `p` of the packed word at `(g, c)`. -/
theorem nib_qz (x2 : (⟨S32x1376, .i32⟩ : BufTy).Contents (Elt Ideal)) (g : Fin 32) (c : Fin 1376) (p : Fin 8) :
    val_main_v21 (F := Ideal) x2 (ix3 g c p) = Cert.Dequant.nib (x2 (ix2 g c)) p := by
  rw [val_main_v21_apply, val_main_v19_apply, val_main_v17_apply, val_main_v16_apply, val_main_v18_apply, val_main_v15_apply,
    val_main_v20_apply, val_main_c_2_apply, idx_qz, idx_shz, shiftz_eq]
  exact Cert.Dequant.nib_host _ _

theorem idx_flat_qz (g : Fin 32) (o : Fin 11008) :
    idx_main_v22 (ix2 g o) = ix3 g (Cert.Dequant.pcol (n := 1376) (N := 11008) rfl o) (Cert.Dequant.pnib o) := by
  have hg := g.isLt
  have ho := o.isLt
  funext a
  match a with
  | ⟨0, _⟩ => exact Fin.ext (by show (g.val * 11008 + o.val) / 11008 = g.val; omega)
  | ⟨1, _⟩ => exact Fin.ext (by show (g.val * 11008 + o.val) / 8 % 1376 = o.val / 8; omega)
  | ⟨2, _⟩ => exact Fin.ext (by show (g.val * 11008 + o.val) % 8 = o.val % 8; omega)

/-- The unpacked zero point of group `g`, column `o`, as an extended real. -/
theorem unpacked_qz (x2 : (⟨S32x1376, .i32⟩ : BufTy).Contents (Elt Ideal)) (g : Fin 32) (o : Fin 11008) :
    val_main_v23 (F := Ideal) x2 (ix2 g o)
      = Cert.Dequant.nibR (x2 (ix2 g (Cert.Dequant.pcol (n := 1376) (N := 11008) rfl o))) (Cert.Dequant.pnib o) := by
  rw [val_main_v23_apply, val_main_v22_apply, idx_flat_qz, nib_qz]
  rfl

/-! ## Repeating a group's row 128 times: row `i` reads group `i / 128` -/

theorem idx_rep_zp (i : Fin 4096) (o : Fin 11008) :
    idx_main_v26 (idx_main_v27 (ix2 i o)) = ix2 (Cert.Dequant.grp i) o := by
  have hi := i.isLt
  have ho := o.isLt
  funext a
  match a with
  | ⟨0, _⟩ => exact Fin.ext (by show (i.val * 11008 + o.val) / 1409024 = i.val / 128; omega)
  | ⟨1, _⟩ => exact Fin.ext (by show (i.val * 11008 + o.val) % 11008 = o.val; omega)

theorem idx_rep_sc (i : Fin 4096) (o : Fin 11008) :
    idx_main_v24 (idx_main_v25 (ix2 i o)) = ix2 (Cert.Dequant.grp i) o := by
  have hi := i.isLt
  have ho := o.isLt
  funext a
  match a with
  | ⟨0, _⟩ => exact Fin.ext (by show (i.val * 11008 + o.val) / 1409024 = i.val / 128; omega)
  | ⟨1, _⟩ => exact Fin.ext (by show (i.val * 11008 + o.val) % 11008 = o.val; omega)

/-- The repeated zero point at row `i` is the zero point of group `i / 128`. -/
theorem rep_zp (x2 : (⟨S32x1376, .i32⟩ : BufTy).Contents (Elt Ideal)) (i : Fin 4096) (o : Fin 11008) :
    val_main_v27 (F := Ideal) x2 (ix2 i o) = val_main_v23 (F := Ideal) x2 (ix2 (Cert.Dequant.grp i) o) := by
  rw [val_main_v27_apply, val_main_v26_apply, idx_rep_zp]

/-- The repeated scale at row `i` is the scale of group `i / 128`. -/
theorem rep_sc (x3 : (⟨S32x11008, .f32⟩ : BufTy).Contents (Elt Ideal)) (i : Fin 4096) (o : Fin 11008) :
    val_main_v25 (F := Ideal) x3 (ix2 i o) = x3 (ix2 (Cert.Dequant.grp i) o) := by
  rw [val_main_v25_apply, val_main_v24_apply, idx_rep_sc]

/-! ## The weight and the contraction -/

/-- The dequantized weight stage of the reference (`%29`), at row `i` and column `o`, is the specification's weight. -/
theorem weight_eq (x1 : (⟨S4096x1376, .i32⟩ : BufTy).Contents (Elt Ideal)) (x2 : (⟨S32x1376, .i32⟩ : BufTy).Contents (Elt Ideal))
    (x3 : (⟨S32x11008, .f32⟩ : BufTy).Contents (Elt Ideal)) (i : Fin 4096) (o : Fin 11008) :
    val_main_v29 (F := Ideal) x1 x2 x3 (ix2 i o) = Cert.Dequant.weight (n := 1376) (N := 11008) rfl x1 x2 x3 i o := by
  rw [val_main_v29_apply, val_main_v28_apply, unpacked_qw, rep_zp, unpacked_qz, rep_sc]
  rfl

/-- The left operand of the contraction is read at `(b, s, k)`. -/
theorem lidx_eq (b : Fin 2) (s : Fin 2048) (o : Fin 11008) (k : Fin 4096) :
    lidx_main_v30 (ix3 b s o) k = ix3 b s k :=
  funext fun a => match a with
    | ⟨0, _⟩ => rfl
    | ⟨1, _⟩ => rfl
    | ⟨2, _⟩ => rfl

/-- The right operand of the contraction is read at `(k, o)`. -/
theorem ridx_eq (b : Fin 2) (s : Fin 2048) (o : Fin 11008) (k : Fin 4096) :
    ridx_main_v30 (ix3 b s o) k = ix2 k o :=
  funext fun a => match a with
    | ⟨0, _⟩ => rfl
    | ⟨1, _⟩ => rfl

/-- The reference's result stage (`%30`) is the specification's result. -/
theorem ref_eq (x0 : (⟨S2x2048x4096, .f32⟩ : BufTy).Contents (Elt Ideal)) (x1 : (⟨S4096x1376, .i32⟩ : BufTy).Contents (Elt Ideal))
    (x2 : (⟨S32x1376, .i32⟩ : BufTy).Contents (Elt Ideal)) (x3 : (⟨S32x11008, .f32⟩ : BufTy).Contents (Elt Ideal)) :
    val_main_v30 (F := Ideal) x0 x1 x2 x3 = Cert.Dequant.result x0 x1 x2 x3 := by
  funext j
  obtain ⟨b, s, o, rfl⟩ : ∃ (b : Fin 2) (s : Fin 2048) (o : Fin 11008), j = ix3 b s o := ⟨j 0, j 1, j 2, eq_ix3 j⟩
  rw [val_main_v30_apply]
  show _ = ∑ i : Fin 4096, x0 (ix3 b s i) * Cert.Dequant.weight (n := 1376) (N := 11008) rfl x1 x2 x3 i o
  refine Finset.sum_congr rfl fun k _ => ?_
  rw [lidx_eq, ridx_eq, weight_eq]

end Cert.ReferenceIdeal.RefValue

end
-- ==== Proof.lean ====
/-
  The certificate: an int4 weight-only linear layer. The kernel dequantizes the packed weight tile by tile inside a
  K-blocked matrix product (weight[i, o] = (nibble of qweight − nibble of qzeros of row i's group) · scale) and the
  reference dequantizes the whole weight first and contracts once. Over the extended reals both results are
      out[b, s, o] = ∑ i < 4096, x[b, s, i] · weight i o      (Proof/Spec.lean),
  the kernel's by accumulating four tiles of 1024 terms per output block (Proof/KernelIdealAccum.lean, over the loop's
  read-back Proof/KernelIdealTrip.lean and the payloads Proof/Payload.lean), padding columns it then drops
  (Proof/KernelHost.lean, Proof/KernelIdealResult.lean); the reference's by reading its operations index by index
  (Proof/RefValue.lean). The two sums differ only in grouping, which addition on the extended reals allows with no
  finiteness assumption; the rounding of the input and of the weight tile to bf16 is the identity over the extended reals.
  The three frames: the two kernels' from their body runs (with the loop's stores shown to cover the scratch), the
  reference's from its run. The idealization rewrote nothing, so `preserves` is trivial.
-/
import proofs.«416305_j86071144611917_3_alg».proof.Defs
import proofs.«416305_j86071144611917_3_alg».proof.Proof.Gen.Kernel
import proofs.«416305_j86071144611917_3_alg».proof.Proof.Gen.KernelIdeal
import proofs.«416305_j86071144611917_3_alg».proof.Proof.Gen.ReferenceIdeal
import proofs.«416305_j86071144611917_3_alg».proof.Proof.Gen.Pre_finite_inputs
import proofs.«416305_j86071144611917_3_alg».proof.Proof.Gen.ReferenceIdeal.Run
import proofs.«416305_j86071144611917_3_alg».proof.Proof.Gen.ReferenceIdeal.Read
import proofs.«416305_j86071144611917_3_alg».proof.Proof.KernelFrameP
import proofs.«416305_j86071144611917_3_alg».proof.Proof.KernelIdealFrameP
import proofs.«416305_j86071144611917_3_alg».proof.Proof.KernelIdealResult
import proofs.«416305_j86071144611917_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the specification's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
